-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩
abbrev S4 : Shape := ⟨1, ![4]⟩

abbrev nBuf : Space → Nat
  | .hbm => 17
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512x3, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512, .f32⟩
  | .local _ .vmem, ⟨11, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_10 : BitVec 32 := 0#32
  let v51 : BitVec 1 := Scalar.cmpi .ne v50 c0_i32_10
  v51

def k0_cond2 (i : grid0.Coords) : BitVec 1 :=
  let arg1 : BitVec 32 := BitVec.ofNat 32 (i 1).val
  let c0_i32_11 : BitVec 32 := 0#32
  let v52 : BitVec 1 := Scalar.cmpi .ne arg1 c0_i32_11
  let v53 : BitVec 32 := Scalar.extui v52
  let c0_i32_12 : BitVec 32 := 0#32
  let v54 : BitVec 1 := Scalar.cmpi .ne v53 c0_i32_12
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond1 (i : grid1.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_10 : BitVec 32 := 0#32
  let v51 : BitVec 1 := Scalar.cmpi .ne v50 c0_i32_10
  v51

def k1_cond2 (i : grid1.Coords) : BitVec 1 :=
  let arg1 : BitVec 32 := BitVec.ofNat 32 (i 1).val
  let c0_i32_11 : BitVec 32 := 0#32
  let v52 : BitVec 1 := Scalar.cmpi .ne arg1 c0_i32_11
  let v53 : BitVec 32 := Scalar.extui v52
  let c0_i32_12 : BitVec 32 := 0#32
  let v54 : BitVec 1 := Scalar.cmpi .ne v53 c0_i32_12
  v54

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  shapeCasts_S4x512_S4x512x1 : S4x512.ShapeCasts S4x512x1
  shapeCasts_S4x512_S4x1x512 : S4x512.ShapeCasts S4x1x512
  slices_S4x512x3_o0_0_0_S4x512x1 : S4x512x3.Slices ![0, 0, 0] S4x512x1
  shapeCasts_S4x512x1_S4x512 : S4x512x1.ShapeCasts S4x512
  broadcasts_S4x512x1_S4x512x512 : S4x512x1.Broadcasts S4x512x512
  broadcasts_S4x1x512_S4x512x512 : S4x1x512.Broadcasts S4x512x512
  slices_S4x512x3_o0_0_1_S4x512x1 : S4x512x3.Slices ![0, 0, 1] S4x512x1
  slices_S4x512x3_o0_0_2_S4x512x1 : S4x512x3.Slices ![0, 0, 2] S4x512x1
  reduces_S4x512x512_S4x512 : S4x512x512.Reduces [2] S4x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Body0.lean ====
/-
  Region 0's kernel body, run once on whole staging buffers, in each of its two control cases.
  With a and b the two point blocks, the body computes, for every row r of a and row q of b,
  d(r,q) = sqrt(max((|a_r|^2 + |b_q|^2) - 2 (a_r . b_q), 0)), takes the minimum over q (p below), and
  at the first tile of b stores p, at a later tile stores min(previous, p).
-/
import proofs.«161951_j11493332484300_1_alg».proof.Proof.Gen.Kernel.Launch
import proofs.«161951_j11493332484300_1_alg».proof.Proof.Gen.Kernel.Skeleton
import proofs.«161951_j11493332484300_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole input block and the whole output block as rectangles. -/
abbrev rIn : Rect S4x512x3 := Rect.unit (s := S4x512x3) ![0, 0, 0] S4x512x3.size inb_S4x512x3_S4x512x3_0_0_0
abbrev rOut : Rect S4x512 := Rect.unit (s := S4x512) ![0, 0] S4x512.size inb_S4x512_S4x512_0_0

/-- One store of the whole output block covers it. -/
theorem cover_out (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

/-- The tile's minimum distances, from the two input blocks. -/
def tileMin (x0 x1 : Vec F S4x512x3 .f32) : Vec F S4x512 .f32 :=
  k0_pay1 (k0_pay3 (View.ld x0 rIn) (View.ld x1 rIn))

/-- What the first-tile case leaves in the output block. -/
def outFirst (x0 x1 : Vec F S4x512x3 .f32) : Vec F S4x512 .f32 :=
  View.canon [⟨rOut, tileMin x0 x1⟩]

/-- What a later-tile case leaves in the output block, over what it found there. -/
def outNext (x0 x1 : Vec F S4x512x3 .f32) (xo : Vec F S4x512 .f32) : Vec F S4x512 .f32 :=
  View.canon [⟨rOut, k0_pay2 (k0_pay3 (View.ld x0 rIn) (View.ld x1 rIn)) (View.ld xo rOut)⟩]

set_option maxHeartbeats 1000000 in
/-- FIRST TILE (the first conditional taken, the second not): the inputs are read and kept, the output block,
    whatever it held, ends at the tile's minimum distances. -/
theorem body_first (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1)
    (x0 x1 : Vec F S4x512x3 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outFirst x0 x1)) -∗ K ⟨⟩))
      ⊢ wp frame (wpE (defs₀ (F := F)) Variants.none c none) E (cc0__nn_min_kernel i arg2 harg2 arg3 harg3 arg4 harg4) K := by
  simp only [cc0__nn_min_kernel_eq_skeleton]; unfold cc0__nn_min_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

set_option maxHeartbeats 1000000 in
/-- A LATER TILE (the first conditional not taken, the second taken): the inputs are read and kept, the output
    block, found at `xo`, ends at the elementwise minimum of `xo` and the tile's minimum distances. -/
theorem body_next (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1)
    (x0 x1 : Vec F S4x512x3 .f32) (xo : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (outNext x0 x1 xo)) -∗ K ⟨⟩))
      ⊢ wp frame (wpE (defs₀ (F := F)) Variants.none c none) E (cc0__nn_min_kernel i arg2 harg2 arg3 harg3 arg4 harg4) K := by
  simp only [cc0__nn_min_kernel_eq_skeleton]; unfold cc0__nn_min_kernel_skel
  simp only [k0_part1_eq_skeleton]; unfold k0_part1_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.R0

end
-- ==== Proof.K.Dat0.lean ====
/-
  Region 0's proof data. The grid is 16 x 16, point t = 16 i + j: the first input window holds rows
  512 i .. 512 i + 511 of its array at every j, the second rows 512 j .. of its array, and the output block
  (rows 512 i ..) is carried across j: reset at j = 0, lowered by each later tile's minima, written back at j = 15.
  So what the output block holds after point t is defined by recursion on t.
-/
import proofs.«161951_j11493332484300_1_alg».proof.Proof.K.Body0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditionals over the grid: the first holds where j = 0, the second where j ≠ 0 -/

theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)
/-- One of the two conditionals holds at every grid coordinate, so the output window is idle nowhere. -/
theorem live_out : ∀ i : grid0.Coords, cfg0.idle 2 i = false := by decide +kernel

/-! ## What the output block holds after each point -/

/-- The running minimum. After point 16 i + j the output block holds the minimum, over the first j + 1 tiles of
    the second input, of the tiles' minimum distances: the first tile's at j = 0, lowered by the tile's at j > 0. -/
def outs (c : Dev nD) : (n : ℕ) → n < cfg0.N → Vec F S4x512 .f32
  | 0, hn => outFirst (iblk V c 0 ⟨0, hn⟩) (iblk V c 1 ⟨0, hn⟩)
  | n + 1, hn =>
    if (n + 1) % 16 = 0 then outFirst (iblk V c 0 ⟨n + 1, hn⟩) (iblk V c 1 ⟨n + 1, hn⟩)
    else outNext (iblk V c 0 ⟨n + 1, hn⟩) (iblk V c 1 ⟨n + 1, hn⟩) (outs c n (Nat.lt_of_succ_lt hn))

theorem outs_first (c : Dev nD) (t : Fin cfg0.N) (h0 : t.val % 16 = 0) :
    outs V c t.val t.isLt = outFirst (iblk V c 0 t) (iblk V c 1 t) := by
  obtain ⟨n, hn⟩ := t
  cases n with
  | zero => exact rfl
  | succ n => exact (if_pos h0).trans rfl

theorem outs_next (c : Dev nD) (t : Fin cfg0.N) (h0 : ¬ t.val % 16 = 0) :
    outs V c t.val t.isLt = outNext (iblk V c 0 t) (iblk V c 1 t) (outs V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body at point `t` each input's buffer at its block and the
    output's at the running minimum; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outs V c t.val t.isLt
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outs V c t.val t.isLt := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d

/-- At a point with j ≠ 0 the output's current staging buffer holds what the body left at the point before: the
    block is written back only at j = 15, so not between the two. -/
theorem before_2_next (c : Dev nD) (t : Fin cfg0.N) (h0 : ¬ t.val % 16 = 0) (d) :
    (dat V c).before 2 t d = outs V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    live_out (fun _ _ => rfl)]
  dsimp only [dat]

/-! ## The body obligation, at a generic point -/

abbrev ms0 (t : Fin cfg0.N) : Memref sig .tc .vmem S4x512x3 .f32 := win0_0.stage (cfg0.slots t 0)
abbrev ms1 (t : Fin cfg0.N) : Memref sig .tc .vmem S4x512x3 .f32 := win0_1.stage (cfg0.slots t 1)
abbrev ms2 (t : Fin cfg0.N) : Memref sig .tc .vmem S4x512 .f32 := win0_2.stage (cfg0.slots t 2)

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ (dat V c).leavesExact 2 t)

set_option maxHeartbeats 800000 in
/-- The body at any point: the inputs' buffers hold their blocks; at j = 0 the output's buffer holds anything and
    the first-tile run applies, at j ≠ 0 it holds the running minimum of the point before and the later-tile run
    applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1,
    show (dat V c).leavesExact 2 t = owns (c : Thread nD τ) (ms2 t) fullShare ((dat V c).after 2 t) from by
      unfold Dat.leavesExact; rw [live_out (grid0.coords t)],
    after_2]
  by_cases h0 : t.val % 16 = 0
  · rw [outs_first V c t h0]
    iintro ⟨HΦ, Ho, ⟨%d0, H0⟩, ⟨%d1, H1⟩, ⟨%d2, H2⟩⟩
    iapply (body_first c (grid0.coords t) _ _ _ _ _ _ ((hcond1 t).mpr h0) (fun h => ((hcond2 t).mp h) h0) (iblk V c 0 t) (iblk V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outs_next V c t h0]
    simp only [before_2_next V c t h0]
    iintro ⟨HΦ, Ho, ⟨%d0, H0⟩, ⟨%d1, H1⟩, ⟨%d2, H2⟩⟩
    iapply (body_next c (grid0.coords t) _ _ _ _ _ _ (fun h => h0 ((hcond1 t).mp h)) ((hcond2 t).mpr h0) (iblk V c 0 t) (iblk V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.Body1.lean ====
/-
  Region 1's kernel body, run once on whole staging buffers, in each of its two control cases.
  With a and b the two point blocks, the body computes, for every row r of a and row q of b,
  d(r,q) = sqrt(max((|a_r|^2 + |b_q|^2) - 2 (a_r . b_q), 0)), takes the minimum over q (p below), and
  at the first tile of b stores p, at a later tile stores min(previous, p).
-/
import proofs.«161951_j11493332484300_1_alg».proof.Proof.Gen.Kernel.Launch
import proofs.«161951_j11493332484300_1_alg».proof.Proof.Gen.Kernel.Skeleton
import proofs.«161951_j11493332484300_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole input block and the whole output block as rectangles. -/
abbrev rIn : Rect S4x512x3 := Rect.unit (s := S4x512x3) ![0, 0, 0] S4x512x3.size inb_S4x512x3_S4x512x3_0_0_0
abbrev rOut : Rect S4x512 := Rect.unit (s := S4x512) ![0, 0] S4x512.size inb_S4x512_S4x512_0_0

/-- One store of the whole output block covers it. -/
theorem cover_out (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

/-- The tile's minimum distances, from the two input blocks. -/
def tileMin (x0 x1 : Vec F S4x512x3 .f32) : Vec F S4x512 .f32 :=
  k1_pay1 (k1_pay3 (View.ld x0 rIn) (View.ld x1 rIn))

/-- What the first-tile case leaves in the output block. -/
def outFirst (x0 x1 : Vec F S4x512x3 .f32) : Vec F S4x512 .f32 :=
  View.canon [⟨rOut, tileMin x0 x1⟩]

/-- What a later-tile case leaves in the output block, over what it found there. -/
def outNext (x0 x1 : Vec F S4x512x3 .f32) (xo : Vec F S4x512 .f32) : Vec F S4x512 .f32 :=
  View.canon [⟨rOut, k1_pay2 (k1_pay3 (View.ld x0 rIn) (View.ld x1 rIn)) (View.ld xo rOut)⟩]

set_option maxHeartbeats 1000000 in
/-- FIRST TILE (the first conditional taken, the second not): the inputs are read and kept, the output block,
    whatever it held, ends at the tile's minimum distances. -/
theorem body_first (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1)
    (x0 x1 : Vec F S4x512x3 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outFirst x0 x1)) -∗ K ⟨⟩))
      ⊢ wp frame (wpE (defs₀ (F := F)) Variants.none c none) E (cc1__nn_min_kernel i arg2 harg2 arg3 harg3 arg4 harg4) K := by
  simp only [cc1__nn_min_kernel_eq_skeleton]; unfold cc1__nn_min_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

set_option maxHeartbeats 1000000 in
/-- A LATER TILE (the first conditional not taken, the second taken): the inputs are read and kept, the output
    block, found at `xo`, ends at the elementwise minimum of `xo` and the tile's minimum distances. -/
theorem body_next (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1)
    (x0 x1 : Vec F S4x512x3 .f32) (xo : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (outNext x0 x1 xo)) -∗ K ⟨⟩))
      ⊢ wp frame (wpE (defs₀ (F := F)) Variants.none c none) E (cc1__nn_min_kernel i arg2 harg2 arg3 harg3 arg4 harg4) K := by
  simp only [cc1__nn_min_kernel_eq_skeleton]; unfold cc1__nn_min_kernel_skel
  simp only [k1_part1_eq_skeleton]; unfold k1_part1_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.R1

end
-- ==== Proof.K.Dat1.lean ====
/-
  Region 1's proof data. The grid is 16 x 16, point t = 16 i + j: the first input window holds rows
  512 i .. 512 i + 511 of its array at every j, the second rows 512 j .. of its array, and the output block
  (rows 512 i ..) is carried across j: reset at j = 0, lowered by each later tile's minima, written back at j = 15.
  So what the output block holds after point t is defined by recursion on t.
-/
import proofs.«161951_j11493332484300_1_alg».proof.Proof.K.Body1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditionals over the grid: the first holds where j = 0, the second where j ≠ 0 -/

theorem hcond1 : ∀ t : Fin cfg1.N, k1_cond1 (grid1.coords t) = 1#1 ↔ t.val % 16 = 0 :=
  (by decide +kernel : ∀ t : Fin grid1.N, k1_cond1 (grid1.coords t) = 1#1 ↔ t.val % 16 = 0)
theorem hcond2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)
/-- One of the two conditionals holds at every grid coordinate, so the output window is idle nowhere. -/
theorem live_out : ∀ i : grid1.Coords, cfg1.idle 2 i = false := by decide +kernel

/-! ## What the output block holds after each point -/

/-- The running minimum. After point 16 i + j the output block holds the minimum, over the first j + 1 tiles of
    the second input, of the tiles' minimum distances: the first tile's at j = 0, lowered by the tile's at j > 0. -/
def outs (c : Dev nD) : (n : ℕ) → n < cfg1.N → Vec F S4x512 .f32
  | 0, hn => outFirst (iblk V c 0 ⟨0, hn⟩) (iblk V c 1 ⟨0, hn⟩)
  | n + 1, hn =>
    if (n + 1) % 16 = 0 then outFirst (iblk V c 0 ⟨n + 1, hn⟩) (iblk V c 1 ⟨n + 1, hn⟩)
    else outNext (iblk V c 0 ⟨n + 1, hn⟩) (iblk V c 1 ⟨n + 1, hn⟩) (outs c n (Nat.lt_of_succ_lt hn))

theorem outs_first (c : Dev nD) (t : Fin cfg1.N) (h0 : t.val % 16 = 0) :
    outs V c t.val t.isLt = outFirst (iblk V c 0 t) (iblk V c 1 t) := by
  obtain ⟨n, hn⟩ := t
  cases n with
  | zero => exact rfl
  | succ n => exact (if_pos h0).trans rfl

theorem outs_next (c : Dev nD) (t : Fin cfg1.N) (h0 : ¬ t.val % 16 = 0) :
    outs V c t.val t.isLt = outNext (iblk V c 0 t) (iblk V c 1 t) (outs V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body at point `t` each input's buffer at its block and the
    output's at the running minimum; the scoped rest and the generator register untouched; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outs V c t.val t.isLt
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outs V c t.val t.isLt := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d

/-- At a point with j ≠ 0 the output's current staging buffer holds what the body left at the point before: the
    block is written back only at j = 15, so not between the two. -/
theorem before_2_next (c : Dev nD) (t : Fin cfg1.N) (h0 : ¬ t.val % 16 = 0) (d) :
    (dat V c).before 2 t d = outs V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    live_out (fun _ _ => rfl)]
  dsimp only [dat]

/-! ## The body obligation, at a generic point -/

abbrev ms0 (t : Fin cfg1.N) : Memref sig .tc .vmem S4x512x3 .f32 := win1_0.stage (cfg1.slots t 0)
abbrev ms1 (t : Fin cfg1.N) : Memref sig .tc .vmem S4x512x3 .f32 := win1_1.stage (cfg1.slots t 1)
abbrev ms2 (t : Fin cfg1.N) : Memref sig .tc .vmem S4x512 .f32 := win1_2.stage (cfg1.slots t 2)

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ (dat V c).leavesExact 2 t)

set_option maxHeartbeats 800000 in
/-- The body at any point: the inputs' buffers hold their blocks; at j = 0 the output's buffer holds anything and
    the first-tile run applies, at j ≠ 0 it holds the running minimum of the point before and the later-tile run
    applies; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1,
    show (dat V c).leavesExact 2 t = owns (c : Thread nD τ) (ms2 t) fullShare ((dat V c).after 2 t) from by
      unfold Dat.leavesExact; rw [live_out (grid1.coords t)],
    after_2]
  by_cases h0 : t.val % 16 = 0
  · rw [outs_first V c t h0]
    iintro ⟨HΦ, Ho, ⟨%d0, H0⟩, ⟨%d1, H1⟩, ⟨%d2, H2⟩⟩
    iapply (body_first c (grid1.coords t) _ _ _ _ _ _ ((hcond1 t).mpr h0) (fun h => ((hcond2 t).mp h) h0) (iblk V c 0 t) (iblk V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outs_next V c t h0]
    simp only [before_2_next V c t h0]
    iintro ⟨HΦ, Ho, ⟨%d0, H0⟩, ⟨%d1, H1⟩, ⟨%d2, H2⟩⟩
    iapply (body_next c (grid1.coords t) _ _ _ _ _ _ (fun h => h0 ((hcond1 t).mp h)) ((hcond2 t).mpr h0) (iblk V c 0 t) (iblk V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.K.Fold.lean ====
/-
  The TensorCore's unscoped buffers followed through @main: at launch, after region 0 (which changes only its
  output array, to what its write-backs leave), after region 1 (likewise), and after the thirteen host operations.
  The two argument arrays, which no region's output window and no host operation writes, end as launched.
-/
import proofs.«161951_j11493332484300_1_alg».proof.Proof.K.Dat0
import proofs.«161951_j11493332484300_1_alg».proof.Proof.K.Dat1
import proofs.«161951_j11493332484300_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev Wa : Dev nD → Valuation τ sig (Elt F) := fun c b => m ((c : Dev nD), b)
/-- The same read at the TensorCore's references. -/
abbrev Va : (c : Dev nD) → (b : Ref sig .tc) → Buf (Elt F) ((c : Thread nD τ).loc b) := fun c b => Wa m c b
/-- At region 0's exit: its arrays at what the pipeline leaves, every other buffer as entered. -/
def Wb (c : Dev nD) : Valuation τ sig (Elt F) :=
  Pipeline.withArrays spec0 c (Wa m c) fun w => (R0.dat (Va m) c).arrAt w cfg0.N
theorem Wb_arr (c : Dev nD) (w : Fin cfg0.W) :
    Wb m c (Proc.devRef .tc (Pipeline.arrRef spec0 w)) = (R0.dat (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (R0.dat (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- At region 1's exit: its arrays at what the pipeline leaves, every other buffer as entered. -/
def Wc (c : Dev nD) : Valuation τ sig (Elt F) :=
  Pipeline.withArrays spec1 c (Wb m c) fun w => (R1.dat (Vb m) c).arrAt w cfg1.N
theorem Wc_arr (c : Dev nD) (w : Fin cfg1.W) :
    Wc m c (Proc.devRef .tc (Pipeline.arrRef spec1 w)) = (R1.dat (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (R1.dat (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- After the host stretch: the return. -/
abbrev Wd : Dev nD → Valuation τ sig (Elt F) := fun c => StableHlo.after hostOps2 (Wc m c)

/-! ## The arguments end as launched: an input window's array is left as entered, and no host operation writes one -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := StableHlo.after_of_writes_sub hostOps2 _ hostOps2_writes (by decide)
    _ = Wb m c (Proc.devRef .tc main_arg0) := (Wc_arr m c 1).trans (((R1.dat (Vb m) c).arrAt_in 1 rfl _).trans (R1.A_eq (Vb m) c 1))
    _ = Wa m c (Proc.devRef .tc main_arg0) := (Wb_arr m c 0).trans (((R0.dat (Va m) c).arrAt_in 0 rfl _).trans (R0.A_eq (Va m) c 0))
    _ = m ((c : Thread nD τ).loc main_arg0) := rfl

theorem Wd_main_arg1 (c : Dev nD) : Wd m c (Proc.devRef .tc main_arg1) = m ((c : Thread nD τ).loc main_arg1) :=
  calc Wd m c (Proc.devRef .tc main_arg1)
    _ = Wc m c (Proc.devRef .tc main_arg1) := StableHlo.after_of_writes_sub hostOps2 _ hostOps2_writes (by decide)
    _ = Wb m c (Proc.devRef .tc main_arg1) := (Wc_arr m c 0).trans (((R1.dat (Vb m) c).arrAt_in 0 rfl _).trans (R1.A_eq (Vb m) c 0))
    _ = Wa m c (Proc.devRef .tc main_arg1) := (Wb_arr m c 1).trans (((R0.dat (Va m) c).arrAt_in 1 rfl _).trans (R0.A_eq (Va m) c 1))
    _ = m ((c : Thread nD τ).loc main_arg1) := rfl

/-! ## The proof data family and the thread state -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat (Va m) c
  | ⟨1, _⟩ => fun c => R1.dat (Vb m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The last thread state without what is owed: every unscoped buffer at the return's contents, the generator register. -/
abbrev Tₙ (c : Dev nD) : sProp 𝕄 := iprop(StableHlo.held (c : Thread nD τ) (Pipeline.ucRefs τ sig) (Wd m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Run

end
-- ==== Proof.K.Reg0.lean ====
/-
  Region 0 of @main as a segment over the thread state "every unscoped buffer at the boundary's contents, the
  generator register at some state, nothing owed".
-/
import proofs.«161951_j11493332484300_1_alg».proof.Proof.K.Fold

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered with every unscoped buffer at `Wa`, left with them at `Wb`. Its arrays
    are split out of the unscoped buffers and put back at their exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Reg1.lean ====
/-
  Region 1 of @main as a segment over the thread state "every unscoped buffer at the boundary's contents, the
  generator register at some state, nothing owed".
-/
import proofs.«161951_j11493332484300_1_alg».proof.Proof.K.Fold

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 1 over the thread state: entered with every unscoped buffer at `Wb`, left with them at `Wc`. Its arrays
    are split out of the unscoped buffers and put back at their exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Run.lean ====
/-
  The run of @main: region 0, region 1, then thirteen host operations. Every weakly fair execution terminates,
  nothing faulting, and the final memory holds every unscoped TensorCore buffer at the return's contents; so the
  two argument arrays end as launched.
-/
import proofs.«161951_j11493332484300_1_alg».proof.Proof.K.Reg0
import proofs.«161951_j11493332484300_1_alg».proof.Proof.K.Reg1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch from region 1's exit contents, the rest riding along. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Wc m) R

/-- @main's three segments in order. -/
abbrev mainSegs : List (Pipeline.Seg (pcfgs (F := F)) adm (pdats m) () defs₀ 𝒱₀ L lv) :=
  [ .region (reg0 m), .region (reg1 m), .host (hseg m) ]

theorem main_run (c : Dev nD) : main (F := F) c = Pipeline.Seg.run (mainSegs m) := (main_chain c).trans (by chain_rfl)

set_option backward.isDefEq.respectTransparency.types false in
/-- THE RUN. From any memory with zero counters every weakly fair execution of @main terminates, nothing faulting, and
    the final memory holds every unscoped TensorCore buffer at the return's contents `Wd`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun c => by
      show iprop(StableHlo.held (c : Thread nD τ) (Pipeline.ucRefs τ sig) (Wd m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- THE FRAME: every weakly fair execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Wd_main_arg0 m c),
     (h c _ (mem_uc main_arg1 (by decide))).trans (Wd_main_arg1 m c)⟩) (run_main m ρ)

end Cert.Kernel.Run

end
-- ==== Proof.KI.Body0.lean ====
/-
  Region 0's kernel body, run once on whole staging buffers, in each of its two control cases.
  With a and b the two point blocks, the body computes, for every row r of a and row q of b,
  d(r,q) = sqrt(max((|a_r|^2 + |b_q|^2) - 2 (a_r . b_q), 0)), takes the minimum over q (p below), and
  at the first tile of b stores p, at a later tile stores min(previous, p).
-/
import proofs.«161951_j11493332484300_1_alg».proof.Proof.Gen.KernelIdeal.Launch
import proofs.«161951_j11493332484300_1_alg».proof.Proof.Gen.KernelIdeal.Skeleton
import proofs.«161951_j11493332484300_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole input block and the whole output block as rectangles. -/
abbrev rIn : Rect S4x512x3 := Rect.unit (s := S4x512x3) ![0, 0, 0] S4x512x3.size inb_S4x512x3_S4x512x3_0_0_0
abbrev rOut : Rect S4x512 := Rect.unit (s := S4x512) ![0, 0] S4x512.size inb_S4x512_S4x512_0_0

/-- One store of the whole output block covers it. -/
theorem cover_out (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

/-- The tile's minimum distances, from the two input blocks. -/
def tileMin (x0 x1 : Vec F S4x512x3 .f32) : Vec F S4x512 .f32 :=
  k0_pay1 (k0_pay3 (View.ld x0 rIn) (View.ld x1 rIn))

/-- What the first-tile case leaves in the output block. -/
def outFirst (x0 x1 : Vec F S4x512x3 .f32) : Vec F S4x512 .f32 :=
  View.canon [⟨rOut, tileMin x0 x1⟩]

/-- What a later-tile case leaves in the output block, over what it found there. -/
def outNext (x0 x1 : Vec F S4x512x3 .f32) (xo : Vec F S4x512 .f32) : Vec F S4x512 .f32 :=
  View.canon [⟨rOut, k0_pay2 (k0_pay3 (View.ld x0 rIn) (View.ld x1 rIn)) (View.ld xo rOut)⟩]

set_option maxHeartbeats 1000000 in
/-- FIRST TILE (the first conditional taken, the second not): the inputs are read and kept, the output block,
    whatever it held, ends at the tile's minimum distances. -/
theorem body_first (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k0_cond1 i = 1#1) (hc2 : ¬ k0_cond2 i = 1#1)
    (x0 x1 : Vec F S4x512x3 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outFirst x0 x1)) -∗ K ⟨⟩))
      ⊢ wp frame (wpE (defs₀ (F := F)) Variants.none c none) E (cc0__nn_min_kernel i arg2 harg2 arg3 harg3 arg4 harg4) K := by
  simp only [cc0__nn_min_kernel_eq_skeleton]; unfold cc0__nn_min_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

set_option maxHeartbeats 1000000 in
/-- A LATER TILE (the first conditional not taken, the second taken): the inputs are read and kept, the output
    block, found at `xo`, ends at the elementwise minimum of `xo` and the tile's minimum distances. -/
theorem body_next (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k0_cond1 i = 1#1) (hc2 : k0_cond2 i = 1#1)
    (x0 x1 : Vec F S4x512x3 .f32) (xo : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (outNext x0 x1 xo)) -∗ K ⟨⟩))
      ⊢ wp frame (wpE (defs₀ (F := F)) Variants.none c none) E (cc0__nn_min_kernel i arg2 harg2 arg3 harg3 arg4 harg4) K := by
  simp only [cc0__nn_min_kernel_eq_skeleton]; unfold cc0__nn_min_kernel_skel
  simp only [k0_part1_eq_skeleton]; unfold k0_part1_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.R0

end
-- ==== Proof.KI.Dat0.lean ====
/-
  Region 0's proof data. The grid is 16 x 16, point t = 16 i + j: the first input window holds rows
  512 i .. 512 i + 511 of its array at every j, the second rows 512 j .. of its array, and the output block
  (rows 512 i ..) is carried across j: reset at j = 0, lowered by each later tile's minima, written back at j = 15.
  So what the output block holds after point t is defined by recursion on t.
-/
import proofs.«161951_j11493332484300_1_alg».proof.Proof.KI.Body0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditionals over the grid: the first holds where j = 0, the second where j ≠ 0 -/

theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)
/-- One of the two conditionals holds at every grid coordinate, so the output window is idle nowhere. -/
theorem live_out : ∀ i : grid0.Coords, cfg0.idle 2 i = false := by decide +kernel

/-! ## What the output block holds after each point -/

/-- The running minimum. After point 16 i + j the output block holds the minimum, over the first j + 1 tiles of
    the second input, of the tiles' minimum distances: the first tile's at j = 0, lowered by the tile's at j > 0. -/
def outs (c : Dev nD) : (n : ℕ) → n < cfg0.N → Vec F S4x512 .f32
  | 0, hn => outFirst (iblk V c 0 ⟨0, hn⟩) (iblk V c 1 ⟨0, hn⟩)
  | n + 1, hn =>
    if (n + 1) % 16 = 0 then outFirst (iblk V c 0 ⟨n + 1, hn⟩) (iblk V c 1 ⟨n + 1, hn⟩)
    else outNext (iblk V c 0 ⟨n + 1, hn⟩) (iblk V c 1 ⟨n + 1, hn⟩) (outs c n (Nat.lt_of_succ_lt hn))

theorem outs_first (c : Dev nD) (t : Fin cfg0.N) (h0 : t.val % 16 = 0) :
    outs V c t.val t.isLt = outFirst (iblk V c 0 t) (iblk V c 1 t) := by
  obtain ⟨n, hn⟩ := t
  cases n with
  | zero => exact rfl
  | succ n => exact (if_pos h0).trans rfl

theorem outs_next (c : Dev nD) (t : Fin cfg0.N) (h0 : ¬ t.val % 16 = 0) :
    outs V c t.val t.isLt = outNext (iblk V c 0 t) (iblk V c 1 t) (outs V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body at point `t` each input's buffer at its block and the
    output's at the running minimum; the scoped rest and the generator register untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outs V c t.val t.isLt
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outs V c t.val t.isLt := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d

/-- At a point with j ≠ 0 the output's current staging buffer holds what the body left at the point before: the
    block is written back only at j = 15, so not between the two. -/
theorem before_2_next (c : Dev nD) (t : Fin cfg0.N) (h0 : ¬ t.val % 16 = 0) (d) :
    (dat V c).before 2 t d = outs V c (t.val - 1) (Nat.lt_of_le_of_lt (Nat.sub_le _ _) t.isLt) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    live_out (fun _ _ => rfl)]
  dsimp only [dat]

/-! ## The body obligation, at a generic point -/

abbrev ms0 (t : Fin cfg0.N) : Memref sig .tc .vmem S4x512x3 .f32 := win0_0.stage (cfg0.slots t 0)
abbrev ms1 (t : Fin cfg0.N) : Memref sig .tc .vmem S4x512x3 .f32 := win0_1.stage (cfg0.slots t 1)
abbrev ms2 (t : Fin cfg0.N) : Memref sig .tc .vmem S4x512 .f32 := win0_2.stage (cfg0.slots t 2)

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ (dat V c).leavesExact 2 t)

set_option maxHeartbeats 800000 in
/-- The body at any point: the inputs' buffers hold their blocks; at j = 0 the output's buffer holds anything and
    the first-tile run applies, at j ≠ 0 it holds the running minimum of the point before and the later-tile run
    applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1,
    show (dat V c).leavesExact 2 t = owns (c : Thread nD τ) (ms2 t) fullShare ((dat V c).after 2 t) from by
      unfold Dat.leavesExact; rw [live_out (grid0.coords t)],
    after_2]
  by_cases h0 : t.val % 16 = 0
  · rw [outs_first V c t h0]
    iintro ⟨HΦ, Ho, ⟨%d0, H0⟩, ⟨%d1, H1⟩, ⟨%d2, H2⟩⟩
    iapply (body_first c (grid0.coords t) _ _ _ _ _ _ ((hcond1 t).mpr h0) (fun h => ((hcond2 t).mp h) h0) (iblk V c 0 t) (iblk V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outs_next V c t h0]
    simp only [before_2_next V c t h0]
    iintro ⟨HΦ, Ho, ⟨%d0, H0⟩, ⟨%d1, H1⟩, ⟨%d2, H2⟩⟩
    iapply (body_next c (grid0.coords t) _ _ _ _ _ _ (fun h => h0 ((hcond1 t).mp h)) ((hcond2 t).mpr h0) (iblk V c 0 t) (iblk V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.Body1.lean ====
/-
  Region 1's kernel body, run once on whole staging buffers, in each of its two control cases.
  With a and b the two point blocks, the body computes, for every row r of a and row q of b,
  d(r,q) = sqrt(max((|a_r|^2 + |b_q|^2) - 2 (a_r . b_q), 0)), takes the minimum over q (p below), and
  at the first tile of b stores p, at a later tile stores min(previous, p).
-/
import proofs.«161951_j11493332484300_1_alg».proof.Proof.Gen.KernelIdeal.Launch
import proofs.«161951_j11493332484300_1_alg».proof.Proof.Gen.KernelIdeal.Skeleton
import proofs.«161951_j11493332484300_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole input block and the whole output block as rectangles. -/
abbrev rIn : Rect S4x512x3 := Rect.unit (s := S4x512x3) ![0, 0, 0] S4x512x3.size inb_S4x512x3_S4x512x3_0_0_0
abbrev rOut : Rect S4x512 := Rect.unit (s := S4x512) ![0, 0] S4x512.size inb_S4x512_S4x512_0_0

/-- One store of the whole output block covers it. -/
theorem cover_out (p0 : Vec F S4x512 .f32) (y : S4x512.Idx) :
    ∃ pc ∈ ([⟨rOut, p0⟩] : List (View.Piece (Elt F) S4x512 .f32)), y ∈ pc.1.set :=
  View.cover_of_tiled [⟨rOut, p0⟩] S4x512.size (by rfl) y

/-- The tile's minimum distances, from the two input blocks. -/
def tileMin (x0 x1 : Vec F S4x512x3 .f32) : Vec F S4x512 .f32 :=
  k1_pay1 (k1_pay3 (View.ld x0 rIn) (View.ld x1 rIn))

/-- What the first-tile case leaves in the output block. -/
def outFirst (x0 x1 : Vec F S4x512x3 .f32) : Vec F S4x512 .f32 :=
  View.canon [⟨rOut, tileMin x0 x1⟩]

/-- What a later-tile case leaves in the output block, over what it found there. -/
def outNext (x0 x1 : Vec F S4x512x3 .f32) (xo : Vec F S4x512 .f32) : Vec F S4x512 .f32 :=
  View.canon [⟨rOut, k1_pay2 (k1_pay3 (View.ld x0 rIn) (View.ld x1 rIn)) (View.ld xo rOut)⟩]

set_option maxHeartbeats 1000000 in
/-- FIRST TILE (the first conditional taken, the second not): the inputs are read and kept, the output block,
    whatever it held, ends at the tile's minimum distances. -/
theorem body_first (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : k1_cond1 i = 1#1) (hc2 : ¬ k1_cond2 i = 1#1)
    (x0 x1 : Vec F S4x512x3 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (outFirst x0 x1)) -∗ K ⟨⟩))
      ⊢ wp frame (wpE (defs₀ (F := F)) Variants.none c none) E (cc1__nn_min_kernel i arg2 harg2 arg3 harg3 arg4 harg4) K := by
  simp only [cc1__nn_min_kernel_eq_skeleton]; unfold cc1__nn_min_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

set_option maxHeartbeats 1000000 in
/-- A LATER TILE (the first conditional not taken, the second taken): the inputs are read and kept, the output
    block, found at `xo`, ends at the elementwise minimum of `xo` and the tile's minimum distances. -/
theorem body_next (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc1 : ¬ k1_cond1 i = 1#1) (hc2 : k1_cond2 i = 1#1)
    (x0 x1 : Vec F S4x512x3 .f32) (xo : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (outNext x0 x1 xo)) -∗ K ⟨⟩))
      ⊢ wp frame (wpE (defs₀ (F := F)) Variants.none c none) E (cc1__nn_min_kernel i arg2 harg2 arg3 harg3 arg4 harg4) K := by
  simp only [cc1__nn_min_kernel_eq_skeleton]; unfold cc1__nn_min_kernel_skel
  simp only [k1_part1_eq_skeleton]; unfold k1_part1_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.R1

end
-- ==== Proof.KI.Dat1.lean ====
/-
  Region 1's proof data. The grid is 16 x 16, point t = 16 i + j: the first input window holds rows
  512 i .. 512 i + 511 of its array at every j, the second rows 512 j .. of its array, and the output block
  (rows 512 i ..) is carried across j: reset at j = 0, lowered by each later tile's minima, written back at j = 15.
  So what the output block holds after point t is defined by recursion on t.
-/
import proofs.«161951_j11493332484300_1_alg».proof.Proof.KI.Body1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditionals over the grid: the first holds where j = 0, the second where j ≠ 0 -/

theorem hcond1 : ∀ t : Fin cfg1.N, k1_cond1 (grid1.coords t) = 1#1 ↔ t.val % 16 = 0 :=
  (by decide +kernel : ∀ t : Fin grid1.N, k1_cond1 (grid1.coords t) = 1#1 ↔ t.val % 16 = 0)
theorem hcond2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)
/-- One of the two conditionals holds at every grid coordinate, so the output window is idle nowhere. -/
theorem live_out : ∀ i : grid1.Coords, cfg1.idle 2 i = false := by decide +kernel

/-! ## What the output block holds after each point -/

/-- The running minimum. After point 16 i + j the output block holds the minimum, over the first j + 1 tiles of
    the second input, of the tiles' minimum distances: the first tile's at j = 0, lowered by the tile's at j > 0. -/
def outs (c : Dev nD) : (n : ℕ) → n < cfg1.N → Vec F S4x512 .f32
  | 0, hn => outFirst (iblk V c 0 ⟨0, hn⟩) (iblk V c 1 ⟨0, hn⟩)
  | n + 1, hn =>
    if (n + 1) % 16 = 0 then outFirst (iblk V c 0 ⟨n + 1, hn⟩) (iblk V c 1 ⟨n + 1, hn⟩)
    else outNext (iblk V c 0 ⟨n + 1, hn⟩) (iblk V c 1 ⟨n + 1, hn⟩) (outs c n (Nat.lt_of_succ_lt hn))

theorem outs_first (c : Dev nD) (t : Fin cfg1.N) (h0 : t.val % 16 = 0) :
    outs V c t.val t.isLt = outFirst (iblk V c 0 t) (iblk V c 1 t) := by
  obtain ⟨n, hn⟩ := t
  cases n with
  | zero => exact rfl
  | succ n => exact (if_pos h0).trans rfl

theorem outs_next (c : Dev nD) (t : Fin cfg1.N) (h0 : ¬ t.val % 16 = 0) :
    outs V c t.val t.isLt = outNext (iblk V c 0 t) (iblk V c 1 t) (outs V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body at point `t` each input's buffer at its block and the
    output's at the running minimum; the scoped rest and the generator register untouched; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outs V c t.val t.isLt
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outs V c t.val t.isLt := by dsimp only [dat]

theorem before_0 (c : Dev nD) (t : Fin cfg1.N) (d) : (dat V c).before 0 t d = iblk V c 0 t :=
  before_in0_of V (dat V c) (A_eq V c 0) (after_0 V c) t d
theorem before_1 (c : Dev nD) (t : Fin cfg1.N) (d) : (dat V c).before 1 t d = iblk V c 1 t :=
  before_in1_of V (dat V c) (A_eq V c 1) (after_1 V c) t d

/-- At a point with j ≠ 0 the output's current staging buffer holds what the body left at the point before: the
    block is written back only at j = 15, so not between the two. -/
theorem before_2_next (c : Dev nD) (t : Fin cfg1.N) (h0 : ¬ t.val % 16 = 0) (d) :
    (dat V c).before 2 t d = outs V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    live_out (fun _ _ => rfl)]
  dsimp only [dat]

/-! ## The body obligation, at a generic point -/

abbrev ms0 (t : Fin cfg1.N) : Memref sig .tc .vmem S4x512x3 .f32 := win1_0.stage (cfg1.slots t 0)
abbrev ms1 (t : Fin cfg1.N) : Memref sig .tc .vmem S4x512x3 .f32 := win1_1.stage (cfg1.slots t 1)
abbrev ms2 (t : Fin cfg1.N) : Memref sig .tc .vmem S4x512 .f32 := win1_2.stage (cfg1.slots t 2)

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ (dat V c).leavesExact 2 t)

set_option maxHeartbeats 800000 in
/-- The body at any point: the inputs' buffers hold their blocks; at j = 0 the output's buffer holds anything and
    the first-tile run applies, at j ≠ 0 it holds the running minimum of the point before and the later-tile run
    applies; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1,
    show (dat V c).leavesExact 2 t = owns (c : Thread nD τ) (ms2 t) fullShare ((dat V c).after 2 t) from by
      unfold Dat.leavesExact; rw [live_out (grid1.coords t)],
    after_2]
  by_cases h0 : t.val % 16 = 0
  · rw [outs_first V c t h0]
    iintro ⟨HΦ, Ho, ⟨%d0, H0⟩, ⟨%d1, H1⟩, ⟨%d2, H2⟩⟩
    iapply (body_first c (grid1.coords t) _ _ _ _ _ _ ((hcond1 t).mpr h0) (fun h => ((hcond2 t).mp h) h0) (iblk V c 0 t) (iblk V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outs_next V c t h0]
    simp only [before_2_next V c t h0]
    iintro ⟨HΦ, Ho, ⟨%d0, H0⟩, ⟨%d1, H1⟩, ⟨%d2, H2⟩⟩
    iapply (body_next c (grid1.coords t) _ _ _ _ _ _ (fun h => h0 ((hcond1 t).mp h)) ((hcond2 t).mpr h0) (iblk V c 0 t) (iblk V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.Fold.lean ====
/-
  The TensorCore's unscoped buffers followed through @main: at launch, after region 0 (which changes only its
  output array, to what its write-backs leave), after region 1 (likewise), and after the thirteen host operations.
  The two argument arrays, which no region's output window and no host operation writes, end as launched.
-/
import proofs.«161951_j11493332484300_1_alg».proof.Proof.KI.Dat0
import proofs.«161951_j11493332484300_1_alg».proof.Proof.KI.Dat1
import proofs.«161951_j11493332484300_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev Wa : Dev nD → Valuation τ sig (Elt F) := fun c b => m ((c : Dev nD), b)
/-- The same read at the TensorCore's references. -/
abbrev Va : (c : Dev nD) → (b : Ref sig .tc) → Buf (Elt F) ((c : Thread nD τ).loc b) := fun c b => Wa m c b
/-- At region 0's exit: its arrays at what the pipeline leaves, every other buffer as entered. -/
def Wb (c : Dev nD) : Valuation τ sig (Elt F) :=
  Pipeline.withArrays spec0 c (Wa m c) fun w => (R0.dat (Va m) c).arrAt w cfg0.N
theorem Wb_arr (c : Dev nD) (w : Fin cfg0.W) :
    Wb m c (Proc.devRef .tc (Pipeline.arrRef spec0 w)) = (R0.dat (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (R0.dat (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- At region 1's exit: its arrays at what the pipeline leaves, every other buffer as entered. -/
def Wc (c : Dev nD) : Valuation τ sig (Elt F) :=
  Pipeline.withArrays spec1 c (Wb m c) fun w => (R1.dat (Vb m) c).arrAt w cfg1.N
theorem Wc_arr (c : Dev nD) (w : Fin cfg1.W) :
    Wc m c (Proc.devRef .tc (Pipeline.arrRef spec1 w)) = (R1.dat (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (R1.dat (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- After the host stretch: the return. -/
abbrev Wd : Dev nD → Valuation τ sig (Elt F) := fun c => StableHlo.after hostOps2 (Wc m c)

/-! ## The arguments end as launched: an input window's array is left as entered, and no host operation writes one -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := StableHlo.after_of_writes_sub hostOps2 _ hostOps2_writes (by decide)
    _ = Wb m c (Proc.devRef .tc main_arg0) := (Wc_arr m c 1).trans (((R1.dat (Vb m) c).arrAt_in 1 rfl _).trans (R1.A_eq (Vb m) c 1))
    _ = Wa m c (Proc.devRef .tc main_arg0) := (Wb_arr m c 0).trans (((R0.dat (Va m) c).arrAt_in 0 rfl _).trans (R0.A_eq (Va m) c 0))
    _ = m ((c : Thread nD τ).loc main_arg0) := rfl

theorem Wd_main_arg1 (c : Dev nD) : Wd m c (Proc.devRef .tc main_arg1) = m ((c : Thread nD τ).loc main_arg1) :=
  calc Wd m c (Proc.devRef .tc main_arg1)
    _ = Wc m c (Proc.devRef .tc main_arg1) := StableHlo.after_of_writes_sub hostOps2 _ hostOps2_writes (by decide)
    _ = Wb m c (Proc.devRef .tc main_arg1) := (Wc_arr m c 0).trans (((R1.dat (Vb m) c).arrAt_in 0 rfl _).trans (R1.A_eq (Vb m) c 0))
    _ = Wa m c (Proc.devRef .tc main_arg1) := (Wb_arr m c 1).trans (((R0.dat (Va m) c).arrAt_in 1 rfl _).trans (R0.A_eq (Va m) c 1))
    _ = m ((c : Thread nD τ).loc main_arg1) := rfl

/-! ## The proof data family and the thread state -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat (Va m) c
  | ⟨1, _⟩ => fun c => R1.dat (Vb m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The last thread state without what is owed: every unscoped buffer at the return's contents, the generator register. -/
abbrev Tₙ (c : Dev nD) : sProp 𝕄 := iprop(StableHlo.held (c : Thread nD τ) (Pipeline.ucRefs τ sig) (Wd m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Run

end
-- ==== Proof.KI.Reg0.lean ====
/-
  Region 0 of @main as a segment over the thread state "every unscoped buffer at the boundary's contents, the
  generator register at some state, nothing owed".
-/
import proofs.«161951_j11493332484300_1_alg».proof.Proof.KI.Fold

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered with every unscoped buffer at `Wa`, left with them at `Wb`. Its arrays
    are split out of the unscoped buffers and put back at their exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Reg1.lean ====
/-
  Region 1 of @main as a segment over the thread state "every unscoped buffer at the boundary's contents, the
  generator register at some state, nothing owed".
-/
import proofs.«161951_j11493332484300_1_alg».proof.Proof.KI.Fold

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 1 over the thread state: entered with every unscoped buffer at `Wb`, left with them at `Wc`. Its arrays
    are split out of the unscoped buffers and put back at their exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Run.lean ====
/-
  The run of @main: region 0, region 1, then thirteen host operations. Every weakly fair execution terminates,
  nothing faulting, and the final memory holds every unscoped TensorCore buffer at the return's contents; so the
  two argument arrays end as launched.
-/
import proofs.«161951_j11493332484300_1_alg».proof.Proof.KI.Reg0
import proofs.«161951_j11493332484300_1_alg».proof.Proof.KI.Reg1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretch from region 1's exit contents, the rest riding along. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Wc m) R

/-- @main's three segments in order. -/
abbrev mainSegs : List (Pipeline.Seg (pcfgs (F := F)) adm (pdats m) () defs₀ 𝒱₀ L lv) :=
  [ .region (reg0 m), .region (reg1 m), .host (hseg m) ]

theorem main_run (c : Dev nD) : main (F := F) c = Pipeline.Seg.run (mainSegs m) := (main_chain c).trans (by chain_rfl)

set_option backward.isDefEq.respectTransparency.types false in
/-- THE RUN. From any memory with zero counters every weakly fair execution of @main terminates, nothing faulting, and
    the final memory holds every unscoped TensorCore buffer at the return's contents `Wd`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun c => by
      show iprop(StableHlo.held (c : Thread nD τ) (Pipeline.ucRefs τ sig) (Wd m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- THE FRAME: every weakly fair execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Wd_main_arg0 m c),
     (h c _ (mem_uc main_arg1 (by decide))).trans (Wd_main_arg1 m c)⟩) (run_main m ρ)

end Cert.KernelIdeal.Run

end
-- ==== Proof.Spec.lean ====
/-
  The mathematics both programs compute, over the extended reals. Two clouds of points in R^3, in 4 batches:
  a has N points per batch, c has M. For point n of a and point m of c (same batch b)
      dist a c b n m = sqrt (max ((|a_n|^2 + |c_m|^2) - 2 (a_n . c_m)) 0),
  and nn a c (b, n) is the infimum of dist a c b n m over all m: the distance from a_n to the nearest point of c.
  The literals 2 and 0 are kept as the binary32 words both programs print.
-/
import Idealize.ShloMosaic.PureOps.Ideal
import Idealize.ShloMosaic.PureOps.Ideal.Laws
import Idealize.ShloMosaic.Lib.ValueIdx
import Mathlib.Order.Fin.Basic
import Mathlib.Data.Finset.Lattice.Fold
import Mathlib.Algebra.BigOperators.Fin

noncomputable section

namespace Cert.Spec

open Idealize.ShloMosaic Idealize.ShloMosaic.ValueIdx

/-- A cloud: 4 batches of N points of R^3, as an array [4, N, 3] of extended reals. -/
abbrev Pts (N : Nat) : Type := (⟨3, ![4, N, 3]⟩ : Shape).Idx → EReal
/-- One value per point: an array [4, N]. -/
abbrev PerPt (N : Nat) : Type := (⟨2, ![4, N]⟩ : Shape).Idx → EReal

/-- The literal 2.0 and the literal 0.0, as the words the programs print. -/
def two : EReal := Ideal.ofBits .f32 0x40000000#32
def zero : EReal := Ideal.ofBits .f32 0x00000000#32

/-- The squared length of point `n` of batch `b`. -/
def sq {N : Nat} (a : Pts N) (b : Fin 4) (n : Fin N) : EReal := ∑ k : Fin 3, a (ix3 b n k) * a (ix3 b n k)

/-- The inner product of point `n` of `a` and point `m` of `c`. -/
def dotp {N M : Nat} (a : Pts N) (c : Pts M) (b : Fin 4) (n : Fin N) (m : Fin M) : EReal :=
  ∑ k : Fin 3, a (ix3 b n k) * c (ix3 b m k)

/-- The distance between the two points, by the expansion of the square, clamped below at 0. -/
def dist {N M : Nat} (a : Pts N) (c : Pts M) (b : Fin 4) (n : Fin N) (m : Fin M) : EReal :=
  Ideal.sqrt (max ((sq a b n + sq c b m) - two * dotp a c b n m) zero)

/-- For every point of `a`, the distance to the nearest point of `c`. -/
def nn {N M : Nat} (a : Pts N) (c : Pts M) : PerPt N :=
  fun i => Finset.univ.inf fun m : Fin M => dist a c (i 0) (i 1) m

theorem nn_apply {N M : Nat} (a : Pts N) (c : Pts M) (b : Fin 4) (n : Fin N) :
    nn a c (ix2 b n) = Finset.univ.inf fun m : Fin M => dist a c b n m := rfl

/-- The inner product and the distance are symmetric: + and * on the extended reals commute. -/
theorem dotp_comm {N M : Nat} (a : Pts N) (c : Pts M) (b : Fin 4) (n : Fin N) (m : Fin M) :
    dotp a c b n m = dotp c a b m n :=
  Finset.sum_congr rfl fun k _ => mul_comm _ _

theorem dist_comm {N M : Nat} (a : Pts N) (c : Pts M) (b : Fin 4) (n : Fin N) (m : Fin M) :
    dist a c b n m = dist c a b m n := by
  unfold dist; rw [dotp_comm a c b n m, add_comm (sq a b n) (sq c b m)]

end Cert.Spec

end
-- ==== Proof.KI.Tile0.lean ====
/-
  Region 0's tile arithmetic read at an index, over the extended reals. With x0 the block of 512 points of the
  first cloud and x1 the block of 512 points of the second, the tile's minimum at (b, r) is the infimum over the
  512 points q of x1 of the distance between point r of x0 and point q of x1; the first-tile store leaves exactly
  that, a later-tile store the minimum of it and what the block held.
-/
import proofs.«161951_j11493332484300_1_alg».proof.Proof.KI.Body0
import proofs.«161951_j11493332484300_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-! ## Zero offsets -/

/-- The zero offsets of a rank-2 block, as the constant function. -/
private theorem hz2 : (![0, 0] : Fin 2 → Nat) = fun _ => 0 := by
  funext a; match a with | ⟨0, _⟩ => rfl | ⟨1, _⟩ => rfl

/-- The zero offsets of a rank-3 block, as the constant function. -/
private theorem hz3 : (![0, 0, 0] : Fin 3 → Nat) = fun _ => 0 := by
  funext a; match a with | ⟨0, _⟩ => rfl | ⟨1, _⟩ => rfl | ⟨2, _⟩ => rfl

/-! ## The layout operations of the tile, read at explicit coordinates -/

section Layout
variable {α : Type}

/-- A per-row value [4, 512], viewed [4, 512, 1] and broadcast along the last axis, reads at (b, r, q) the value
    at (b, r): the broadcast reads the unit axis at 0, and (b, r, 0) and (b, r) have the same row-major position. -/
private theorem bcRow_apply (w : S4x512.Idx → α) (h1 : S4x512.ShapeCasts S4x512x1) (h2 : S4x512x1.Broadcasts S4x512x512)
    (b : Fin 4) (r q : Fin 512) :
    broadcastTo S4x512x512 (shapeCast S4x512x1 w h1) h2 (ix3 b r q) = w (ix2 b r) := by
  refine (broadcastTo_apply _ h2 (ix3 b r q) (ix3 b r (0 : Fin 1)) fun a => ?_).trans ?_
  · match a with
    | ⟨0, _⟩ => rfl
    | ⟨1, _⟩ => rfl
    | ⟨2, _⟩ => rfl
  · refine shapeCast_apply w h1 _ (ix2 b r) ?_
    rw [Shape.rowMajor_val_two, Shape.rowMajor_val_three]
    show b.val * 512 + r.val = (b.val * 512 + r.val) * 1 + 0
    rw [Nat.mul_one, Nat.add_zero]

/-- A per-row value [4, 512], viewed [4, 1, 512] and broadcast along the middle axis, reads at (b, r, q) the value
    at (b, q): the broadcast reads the unit axis at 0, and (b, 0, q) and (b, q) have the same row-major position. -/
private theorem bcCol_apply (w : S4x512.Idx → α) (h1 : S4x512.ShapeCasts S4x1x512) (h2 : S4x1x512.Broadcasts S4x512x512)
    (b : Fin 4) (r q : Fin 512) :
    broadcastTo S4x512x512 (shapeCast S4x1x512 w h1) h2 (ix3 b r q) = w (ix2 b q) := by
  refine (broadcastTo_apply _ h2 (ix3 b r q) (ix3 b (0 : Fin 1) q) fun a => ?_).trans ?_
  · match a with
    | ⟨0, _⟩ => rfl
    | ⟨1, _⟩ => rfl
    | ⟨2, _⟩ => rfl
  · refine shapeCast_apply w h1 _ (ix2 b q) ?_
    rw [Shape.rowMajor_val_two, Shape.rowMajor_val_three]
    show b.val * 512 + q.val = (b.val * 1 + 0) * 512 + q.val
    rw [Nat.mul_one, Nat.add_zero]

/-- Coordinate k of a block of points [4, 512, 3], cut out as [4, 512, 1] from offset k on the last axis and viewed
    [4, 512], reads at (b, r) the block at (b, r, k). -/
private theorem col_apply (v : S4x512x3.Idx → α) (o : Nat) (k : Fin 3) (hk : k.val = o)
    (h1 : S4x512x3.Slices ![0, 0, o] S4x512x1) (h2 : S4x512x1.ShapeCasts S4x512) (b : Fin 4) (r : Fin 512) :
    shapeCast S4x512 (extractStridedSlice S4x512x1 ![0, 0, o] v h1) h2 (ix2 b r) = v (ix3 b r k) := by
  refine (shapeCast_apply _ h2 (ix2 b r) (ix3 b r (0 : Fin 1)) ?_).trans ?_
  · rw [Shape.rowMajor_val_two, Shape.rowMajor_val_three]
    show (b.val * 512 + r.val) * 1 + 0 = b.val * 512 + r.val
    rw [Nat.mul_one, Nat.add_zero]
  · refine extractStridedSlice_apply _ v h1 _ (ix3 b r k) fun a => ?_
    match a with
    | ⟨0, _⟩ => exact (Nat.zero_add _).symm
    | ⟨1, _⟩ => exact (Nat.zero_add _).symm
    | ⟨2, _⟩ => exact hk

end Layout

/-! ## The two reductions of the tile, read at explicit coordinates -/

/-- The index over (b, r) with q inserted on the last axis of [4, 512, 512] is (b, r, q). -/
private theorem lift512_eq (h : S4x512x512.Reduces [2] S4x512) (b : Fin 4) (r q : Fin 512) :
    h.lift (ix2 b r) q = ix3 b r q := by
  funext a
  match a with
  | ⟨0, _⟩ => exact Fin.ext rfl
  | ⟨1, _⟩ => exact Fin.ext rfl
  | ⟨2, _⟩ => exact Fin.ext rfl

/-- The index over (b, r) with k inserted on the last axis of [4, 512, 3] is (b, r, k). -/
private theorem lift3_eq (h : S4x512x3.Reduces [2] S4x512) (b : Fin 4) (r : Fin 512) (k : Fin 3) :
    h.lift (ix2 b r) k = ix3 b r k := by
  funext a
  match a with
  | ⟨0, _⟩ => exact Fin.ext rfl
  | ⟨1, _⟩ => exact Fin.ext rfl
  | ⟨2, _⟩ => exact Fin.ext rfl

/-- The binary32 word of +infinity is the top of the extended reals. -/
private theorem ofBits_inf : Ideal.ofBits .f32 0x7F800000#32 = ⊤ := by simp [Ideal.ofBits, Ideal.ieee]

/-- The fold of min from +infinity over a finite range is the infimum over it. -/
private theorem fold_min_inf {n : Nat} (f : Fin n → EReal) :
    (Finset.univ : Finset (Fin n)).fold min (Ideal.ofBits .f32 0x7F800000#32) f = Finset.univ.inf f := by
  rw [ofBits_inf]; rfl

/-- The sum over the three coordinates of a block of points, at (b, r). The evidence for the accumulator word is
    stated as the equation the payload carries: the zero word equals itself. -/
private theorem sum3_apply (v : FVec Ideal S4x512x3 .f32) (h : S4x512x3.Reduces [2] S4x512) (hφ : FKind.Formats .f32)
    (hacc : (0x00000000#32 : BitVec 32) = 0x00000000#32) (b : Fin 4) (r : Fin 512) :
    multiReduction .add [2] S4x512 v 0x00000000#32 h hφ hacc (ix2 b r) = ∑ k : Fin 3, v (ix3 b r k) :=
  (Ideal.multiReduction_add_single v 0x00000000#32 h hφ hacc (ix2 b r)).trans
    (Finset.sum_congr rfl fun k _ => congrArg v (lift3_eq h b r k))

/-- The minimum over the last axis of [4, 512, 512] from +infinity, at (b, r): the infimum over the 512 coordinates.
    min commutes and associates, so the fold over the indices that drop to (b, r) is the fold over q of the value
    at (b, r, q); from the top element that fold is the infimum. -/
private theorem min512_apply (v : FVec Ideal S4x512x512 .f32) (h : S4x512x512.Reduces [2] S4x512) (hφ : FKind.Formats .f32)
    (hacc : (0x7F800000#32 : BitVec 32) = 0x7F800000#32) (b : Fin 4) (r : Fin 512) :
    multiReduction .minimumf [2] S4x512 v 0x7F800000#32 h hφ hacc (ix2 b r)
      = Finset.univ.inf fun q : Fin 512 => v (ix3 b r q) :=
  (multiReduction_minimumf_eq_fold v 0x7F800000#32 h hφ hacc (ix2 b r)).trans
    ((h.fold_filter_drop_single _ _ v (ix2 b r)).trans
      ((fold_min_inf fun q : Fin 512 => v (h.lift (ix2 b r) q)).trans
        (Finset.inf_congr rfl fun q _ => congrArg v (lift512_eq h b r q))))

/-! ## The tile's two payloads read at an index -/

/-- The lane minimum of the square roots, at (b, r): the infimum over q of the square root at (b, r, q). -/
private theorem pay1_apply (v : FVec Ideal S4x512x512 .f32) (b : Fin 4) (r : Fin 512) :
    k0_pay1 (F := Ideal) v (ix2 b r) = Finset.univ.inf fun q : Fin 512 => Ideal.sqrt (v (ix3 b r q)) := by
  unfold k0_pay1
  exact min512_apply (sqrt v) _ _ _ b r

/-- The clamped squared distance by the expansion of the square, at (b, r, q): the two squared lengths are the sums
    over the three coordinates, the inner product is the chain ((0 + p0) + p1) + p2 of the coordinate products, and
    the literals 2 and 0 are the words the specification names. -/
private theorem pay3_apply (v0 v1 : Vec Ideal S4x512x3 .f32) (b : Fin 4) (r q : Fin 512) :
    k0_pay3 (F := Ideal) v0 v1 (ix3 b r q)
      = max ((Cert.Spec.sq (N := 512) v0 b r + Cert.Spec.sq (N := 512) v1 b q)
          - Cert.Spec.two * Cert.Spec.dotp (N := 512) (M := 512) v0 v1 b r q) Cert.Spec.zero := by
  have hs : ∀ w : BitVec 32, Scalar.ofBits (F := Ideal) .f32 w = Ideal.ofBits .f32 w := fun _ => rfl
  unfold k0_pay3 Cert.Spec.sq Cert.Spec.dotp Cert.Spec.two Cert.Spec.zero
  simp only [maximumf_apply, subf_apply, addf_apply, mulf_apply, broadcast_apply, bcRow_apply, bcCol_apply,
    col_apply (o := 0) (k := 0) (hk := rfl), col_apply (o := 1) (k := 1) (hk := rfl),
    col_apply (o := 2) (k := 2) (hk := rfl), hs]
  rw [sum3_apply, sum3_apply]
  simp only [mulf_apply, Fin.sum_univ_three, Ideal.ofBits_zero_f32, zero_add]

/-! ## The exported readings -/

/-- The first-tile store leaves the tile's minimum distances. -/
theorem outFirst_eq (x0 x1 : Vec Ideal S4x512x3 .f32) : outFirst (F := Ideal) x0 x1 = tileMin (F := Ideal) x0 x1 := by
  unfold outFirst
  exact View.canon_unit_zero hz2 _ _

/-- A later-tile store leaves, element by element, the minimum of what the block held and the tile's minimum distances. -/
theorem outNext_apply (x0 x1 : Vec Ideal S4x512x3 .f32) (xo : Vec Ideal S4x512 .f32) (j : S4x512.Idx) :
    outNext (F := Ideal) x0 x1 xo j = min (xo j) (tileMin (F := Ideal) x0 x1 j) := by
  unfold outNext
  rw [View.canon_unit_zero hz2]
  unfold k0_pay2
  simp only [View.ld_unit_zero (S := S4x512) hz2, shapeCast_self]
  rfl

/-- The tile's minimum at (b, r): the infimum, over the 512 points q of the second block, of the distance between
    point r of the first block and point q of the second. -/
theorem tileMin_apply (x0 x1 : Vec Ideal S4x512x3 .f32) (b : Fin 4) (r : Fin 512) :
    tileMin (F := Ideal) x0 x1 (ix2 b r) = Finset.univ.inf fun q : Fin 512 => Cert.Spec.dist (N := 512) (M := 512) x0 x1 b r q := by
  unfold tileMin
  rw [View.ld_unit_zero (S := S4x512x3) hz3, View.ld_unit_zero (S := S4x512x3) hz3, pay1_apply]
  refine Finset.inf_congr rfl fun q _ => ?_
  rw [pay3_apply]
  rfl

end Cert.KernelIdeal.R0

end
-- ==== Proof.KI.Final0.lean ====
/-
  Region 0's output array after the region, over the extended reals: for every point of the first input array the
  distance to the nearest point of the second. The output block of rows 512 i .. is written back once, at j = 15,
  holding the minimum over the sixteen tiles of the second array of the tiles' minima, which is the infimum over
  all 8192 points; the sixteen write-backs tile the array.
-/
import proofs.«161951_j11493332484300_1_alg».proof.Proof.KI.Dat0
import proofs.«161951_j11493332484300_1_alg».proof.Proof.KI.Tile0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

-- the TensorCore's buffer contents when the region is entered
variable (V : (c : Dev nD) → (b : Ref sig .tc) → Buf (Elt Ideal) ((c : Thread nD τ).loc b))

/-! ## The arrays and the blocks, by their literal types -/

/-- The first cloud, the second cloud: the two input arrays as the region finds them. -/
abbrev A0 (c : Dev nD) : Cert.Spec.Pts 8192 := V c (Pipeline.arrRef spec0 0)
abbrev A1 (c : Dev nD) : Cert.Spec.Pts 8192 := V c (Pipeline.arrRef spec0 1)
/-- The blocks of 512 points the two input windows hold at point t. -/
abbrev B0 (c : Dev nD) (t : Fin cfg0.N) : Cert.Spec.Pts 512 := iblk V c 0 t
abbrev B1 (c : Dev nD) (t : Fin cfg0.N) : Cert.Spec.Pts 512 := iblk V c 1 t

/-! ## The index maps over the grid: point t = 16 i + j reads rows 512 i .. of the first array, rows 512 j .. of
    the second, and writes rows 512 i .. of the output -/

theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16)

theorem t_lt (t : Fin cfg0.N) : t.val < 256 := lt_of_lt_of_eq t.isLt (show cfg0.N = 256 from N_0)

/-- Row r of the block of rows 512 (t / 16) .. is a row of the array; likewise of the block of rows 512 (t % 16) .. -/
theorem row_lt (t : Fin cfg0.N) (r : Fin 512) : 512 * (t.val / 16) + r.val < 8192 := by
  have := t_lt t; have := r.isLt; omega
theorem col_lt (t : Fin cfg0.N) (q : Fin 512) : 512 * (t.val % 16) + q.val < 8192 := by
  have := q.isLt; omega

/-! ## Block reads -/

/-- The first window's block at point t holds rows 512 (t / 16) .. of the first array. -/
theorem B0_apply (c : Dev nD) (t : Fin cfg0.N) (b : Fin 4) (r : Fin 512) (k : Fin 3) :
    B0 V c t (ix3 b r k) = A0 V c (ix3 b ⟨512 * (t.val / 16) + r.val, row_lt t r⟩ k) := by
  obtain ⟨e0, e1, e2, -, -, -, -, -⟩ := idx_facts t
  show V c (Pipeline.arrRef spec0 0) (((cfg0.win 0).blk t).view.emb (ix3 b r k)) = V c (Pipeline.arrRef spec0 0) (ix3 b ⟨512 * (t.val / 16) + r.val, row_lt t r⟩ k)
  refine congrArg _ ?_
  funext a; apply Fin.ext
  match a with
  | ⟨0, _⟩ => show win0_0.index t (0 : Fin 3) * 4 + 1 * b.val = b.val; omega
  | ⟨1, _⟩ => show win0_0.index t (1 : Fin 3) * 512 + 1 * r.val = 512 * (t.val / 16) + r.val; omega
  | ⟨2, _⟩ => show win0_0.index t (2 : Fin 3) * 3 + 1 * k.val = k.val; omega

/-- The second window's block at point t holds rows 512 (t % 16) .. of the second array. -/
theorem B1_apply (c : Dev nD) (t : Fin cfg0.N) (b : Fin 4) (q : Fin 512) (k : Fin 3) :
    B1 V c t (ix3 b q k) = A1 V c (ix3 b ⟨512 * (t.val % 16) + q.val, col_lt t q⟩ k) := by
  obtain ⟨-, -, -, e0, e1, e2, -, -⟩ := idx_facts t
  show V c (Pipeline.arrRef spec0 1) (((cfg0.win 1).blk t).view.emb (ix3 b q k)) = V c (Pipeline.arrRef spec0 1) (ix3 b ⟨512 * (t.val % 16) + q.val, col_lt t q⟩ k)
  refine congrArg _ ?_
  funext a; apply Fin.ext
  match a with
  | ⟨0, _⟩ => show win0_1.index t (0 : Fin 3) * 4 + 1 * b.val = b.val; omega
  | ⟨1, _⟩ => show win0_1.index t (1 : Fin 3) * 512 + 1 * q.val = 512 * (t.val % 16) + q.val; omega
  | ⟨2, _⟩ => show win0_1.index t (2 : Fin 3) * 3 + 1 * k.val = k.val; omega

/-- The distance between point r of the first block and point q of the second block is the distance between the
    points 512 (t / 16) + r and 512 (t % 16) + q of the two arrays: the squared lengths and the inner product are
    sums over the three coordinates of the same entries. -/
theorem dist_blocks (c : Dev nD) (t : Fin cfg0.N) (b : Fin 4) (r q : Fin 512) :
    Cert.Spec.dist (N := 512) (M := 512) (B0 V c t) (B1 V c t) b r q
      = Cert.Spec.dist (N := 8192) (M := 8192) (A0 V c) (A1 V c) b ⟨512 * (t.val / 16) + r.val, row_lt t r⟩
          ⟨512 * (t.val % 16) + q.val, col_lt t q⟩ := by
  unfold Cert.Spec.dist Cert.Spec.sq Cert.Spec.dotp
  simp only [B0_apply, B1_apply]

/-! ## Infima over an initial segment of the second cloud -/

/-- The infimum of f over the indices below m. -/
def infBelow (f : Fin 8192 → EReal) (m : ℕ) : EReal := (Finset.univ.filter fun i : Fin 8192 => i.val < m).inf f

/-- Below 8192 is everything. -/
theorem infBelow_all (f : Fin 8192 → EReal) : infBelow f 8192 = Finset.univ.inf f := by
  unfold infBelow
  rw [Finset.filter_true_of_mem fun i _ => i.isLt]

/-- The first tile: the infimum below 512 is the infimum over the tile. -/
theorem infBelow_first (f : Fin 8192 → EReal) :
    infBelow f 512 = Finset.univ.inf fun q : Fin 512 => f ⟨q.val, by have := q.isLt; omega⟩ := by
  unfold infBelow
  apply le_antisymm
  · refine Finset.le_inf fun q _ => Finset.inf_le ?_
    rw [Finset.mem_filter]; exact ⟨Finset.mem_univ _, q.isLt⟩
  · refine Finset.le_inf fun i hi => ?_
    rw [Finset.mem_filter] at hi
    exact Finset.inf_le (f := fun q : Fin 512 => f ⟨q.val, by have := q.isLt; omega⟩) (Finset.mem_univ (⟨i.val, hi.2⟩ : Fin 512))

/-- One more tile: the infimum below 512 (j + 1) is the smaller of the infimum below 512 j and the infimum over
    tile j. -/
theorem infBelow_step (f : Fin 8192 → EReal) (j : ℕ) (hj : j < 16) :
    infBelow f (512 * (j + 1))
      = min (infBelow f (512 * j)) (Finset.univ.inf fun q : Fin 512 => f ⟨512 * j + q.val, by have := q.isLt; omega⟩) := by
  unfold infBelow
  apply le_antisymm
  · refine le_min (Finset.le_inf fun i hi => Finset.inf_le ?_) (Finset.le_inf fun q _ => Finset.inf_le ?_)
    · rw [Finset.mem_filter] at hi ⊢; exact ⟨Finset.mem_univ _, by have := hi.2; omega⟩
    · rw [Finset.mem_filter]; exact ⟨Finset.mem_univ _, by have := q.isLt; show 512 * j + q.val < 512 * (j + 1); omega⟩
  · refine Finset.le_inf fun i hi => ?_
    rw [Finset.mem_filter] at hi
    by_cases h : i.val < 512 * j
    · refine (min_le_left _ _).trans (Finset.inf_le ?_)
      rw [Finset.mem_filter]; exact ⟨Finset.mem_univ _, h⟩
    · refine (min_le_right _ _).trans ?_
      have hlt : i.val - 512 * j < 512 := by have := hi.2; omega
      have e : (⟨512 * j + (i.val - 512 * j), by have := i.isLt; omega⟩ : Fin 8192) = i := Fin.ext (by show 512 * j + (i.val - 512 * j) = i.val; omega)
      exact (Finset.inf_le (f := fun q : Fin 512 => f ⟨512 * j + q.val, by have := q.isLt; omega⟩)
        (Finset.mem_univ (⟨i.val - 512 * j, hlt⟩ : Fin 512))).trans (le_of_eq (congrArg f e))

/-! ## The running minimum after each point -/

/-- The block distance with the array points named by any indices of the right values. -/
theorem dist_blocks_at (c : Dev nD) (t : Fin cfg0.N) (b : Fin 4) (r q : Fin 512) (n m : Fin 8192)
    (hn : n.val = 512 * (t.val / 16) + r.val) (hm : m.val = 512 * (t.val % 16) + q.val) :
    Cert.Spec.dist (N := 512) (M := 512) (B0 V c t) (B1 V c t) b r q
      = Cert.Spec.dist (N := 8192) (M := 8192) (A0 V c) (A1 V c) b n m := by
  have en : n = ⟨512 * (t.val / 16) + r.val, row_lt t r⟩ := Fin.ext hn
  have em : m = ⟨512 * (t.val % 16) + q.val, col_lt t q⟩ := Fin.ext hm
  rw [en, em]
  exact dist_blocks V c t b r q

/-- The running minimum does not depend on how its point is written. -/
theorem outs_congr (c : Dev nD) (n n' : ℕ) (e : n = n') (h : n < cfg0.N) (h' : n' < cfg0.N) :
    outs V c n h = outs V c n' h' := by
  subst e; rfl

/-- THE INVARIANT. After point 16 i + j the output block holds at (b, r) the infimum, over the points of the second
    array below 512 (j + 1), of their distances to point 512 i + r of the first: the first tile's minima at j = 0,
    one more tile's at each later j. By induction on j. -/
theorem outs_apply (c : Dev nD) (i : ℕ) (hi : i < 16) :
    ∀ (j : ℕ) (hj : j < 16) (h : 16 * i + j < cfg0.N) (b : Fin 4) (r : Fin 512),
      outs V c (16 * i + j) h (ix2 b r)
        = infBelow (fun m => Cert.Spec.dist (N := 8192) (M := 8192) (A0 V c) (A1 V c) b
            ⟨512 * i + r.val, by have := r.isLt; omega⟩ m) (512 * (j + 1))
  | 0, hj, h, b, r => by
    have h0 : (⟨16 * i + 0, h⟩ : Fin cfg0.N).val % 16 = 0 := by show (16 * i + 0) % 16 = 0; omega
    refine (congrFun (outs_first V c ⟨16 * i + 0, h⟩ h0) (ix2 b r)).trans ?_
    refine (congrFun (outFirst_eq (B0 V c ⟨16 * i + 0, h⟩) (B1 V c ⟨16 * i + 0, h⟩)) (ix2 b r)).trans ?_
    refine (tileMin_apply (B0 V c ⟨16 * i + 0, h⟩) (B1 V c ⟨16 * i + 0, h⟩) b r).trans ?_
    rw [show 512 * (0 + 1) = 512 from rfl, infBelow_first]
    refine Finset.inf_congr rfl fun q _ => ?_
    exact dist_blocks_at V c ⟨16 * i + 0, h⟩ b r q _ _
      (by show 512 * i + r.val = 512 * ((16 * i + 0) / 16) + r.val; omega)
      (by show q.val = 512 * ((16 * i + 0) % 16) + q.val; omega)
  | j + 1, hj, h, b, r => by
    have hne : ¬ (⟨16 * i + (j + 1), h⟩ : Fin cfg0.N).val % 16 = 0 := by
      show ¬ (16 * i + (j + 1)) % 16 = 0; omega
    refine (congrFun (outs_next V c ⟨16 * i + (j + 1), h⟩ hne) (ix2 b r)).trans ?_
    refine (outNext_apply (B0 V c ⟨16 * i + (j + 1), h⟩) (B1 V c ⟨16 * i + (j + 1), h⟩) _ (ix2 b r)).trans ?_
    rw [infBelow_step _ (j + 1) hj]
    refine congrArg₂ min ?_ ?_
    · rw [outs_congr V c ((⟨16 * i + (j + 1), h⟩ : Fin cfg0.N).val - 1) (16 * i + j)
        (by show 16 * i + (j + 1) - 1 = 16 * i + j; omega) _ (by omega)]
      exact outs_apply c i hi j (by omega) _ b r
    · refine (tileMin_apply (B0 V c ⟨16 * i + (j + 1), h⟩) (B1 V c ⟨16 * i + (j + 1), h⟩) b r).trans ?_
      refine Finset.inf_congr rfl fun q _ => ?_
      exact dist_blocks_at V c ⟨16 * i + (j + 1), h⟩ b r q _ _
        (by show 512 * i + r.val = 512 * ((16 * i + (j + 1)) / 16) + r.val; omega)
        (by show 512 * (j + 1) + q.val = 512 * ((16 * i + (j + 1)) % 16) + q.val; omega)

/-- At a point with j = 15 the block holds the infimum over the whole second array: the nearest-point distance
    of row 512 (t / 16) + r. -/
theorem outs_last (c : Dev nD) (t : Fin cfg0.N) (h15 : t.val % 16 = 15) (b : Fin 4) (r : Fin 512) :
    outs V c t.val t.isLt (ix2 b r)
      = Cert.Spec.nn (N := 8192) (M := 8192) (A0 V c) (A1 V c) (ix2 b ⟨512 * (t.val / 16) + r.val, row_lt t r⟩) := by
  have hN := t_lt t
  have ht : t.val = 16 * (t.val / 16) + 15 := by omega
  rw [Cert.Spec.nn_apply, outs_congr V c t.val (16 * (t.val / 16) + 15) ht t.isLt (ht ▸ t.isLt),
    outs_apply V c (t.val / 16) (by omega) 15 (by omega) _ b r, show 512 * (15 + 1) = 8192 from rfl, infBelow_all]

/-! ## What is written back, and where -/

/-- What a point with j = 15 writes back is its block of the nearest-point distances. -/
theorem flushed_eq (c : Dev nD) (t : Fin cfg0.N) (hf : (cfg0.win 2).flush t = true) :
    (dat (F := Ideal) V c).flushed 2 t
      = ((cfg0.win 2).blk t).view.read (Elt Ideal) (Cert.Spec.nn (N := 8192) (M := 8192) (A0 V c) (A1 V c)) := by
  have h15 : t.val % 16 = 15 := (flush0_2 t).mp hf
  obtain ⟨-, -, -, -, -, -, e0, e1⟩ := idx_facts t
  show (cfg0.win 2).cut (grid0.coords t) ((dat (F := Ideal) V c).after 2 t) = _
  rw [after_2]
  funext y
  obtain ⟨b, r, rfl⟩ : ∃ (b : Fin 4) (r : Fin 512), y = ix2 b r := ⟨y 0, y 1, eq_ix2 (n0 := 4) (n1 := 512) y⟩
  have ex : (cfg0.win 2).xinj (grid0.coords t) (ix2 b r) = ix2 b r :=
    funext fun a => match a with | ⟨0, _⟩ => rfl | ⟨1, _⟩ => rfl
  have em : ((cfg0.win 2).blk t).view.emb (ix2 b r) = ix2 b ⟨512 * (t.val / 16) + r.val, row_lt t r⟩ := by
    funext a; apply Fin.ext
    match a with
    | ⟨0, _⟩ => show win0_2.index t (0 : Fin 2) * 4 + 1 * b.val = b.val; omega
    | ⟨1, _⟩ => show win0_2.index t (1 : Fin 2) * 512 + 1 * r.val = 512 * (t.val / 16) + r.val; omega
  show outs V c t.val t.isLt ((cfg0.win 2).xinj (grid0.coords t) (ix2 b r))
    = Cert.Spec.nn (N := 8192) (M := 8192) (A0 V c) (A1 V c) (((cfg0.win 2).blk t).view.emb (ix2 b r))
  rw [ex, em]
  exact outs_last V c t h15 b r

/-- Row n of the output array lies in the block written back at point 16 (n / 512) + 15. -/
theorem cover (i : S4x8192.Idx) :
    ∃ t : Fin cfg0.N, (cfg0.win 2).flush t = true ∧ i ∈ ((cfg0.win 2).blk t).view.set := by
  have hN : cfg0.N = 256 := N_0
  have h0 : (i 0).val < 4 := (i 0).isLt
  have h1 : (i 1).val < 8192 := (i 1).isLt
  have hlt : 16 * ((i 1).val / 512) + 15 < cfg0.N := by rw [hN]; omega
  obtain ⟨-, -, -, -, -, -, e0, e1⟩ := idx_facts ⟨16 * ((i 1).val / 512) + 15, hlt⟩
  have e1' : win0_2.index ⟨16 * ((i 1).val / 512) + 15, hlt⟩ (1 : Fin 2) = (i 1).val / 512 := by
    rw [e1]; show (16 * ((i 1).val / 512) + 15) / 16 = (i 1).val / 512; omega
  refine ⟨⟨16 * ((i 1).val / 512) + 15, hlt⟩, (flush0_2 _).mpr (by show (16 * ((i 1).val / 512) + 15) % 16 = 15; omega), ?_⟩
  show i ∈ ((View.whole main_v0).slice (win0_2.rect ⟨16 * ((i 1).val / 512) + 15, hlt⟩)).set
  rw [View.set_slice_whole, Rect.mem_set_unit]
  intro a
  match a with
  | ⟨0, _⟩ =>
    show win0_2.index ⟨16 * ((i 1).val / 512) + 15, hlt⟩ (0 : Fin 2) * 4 ≤ (i 0).val
      ∧ (i 0).val < win0_2.index ⟨16 * ((i 1).val / 512) + 15, hlt⟩ (0 : Fin 2) * 4 + 4
    omega
  | ⟨1, _⟩ =>
    show win0_2.index ⟨16 * ((i 1).val / 512) + 15, hlt⟩ (1 : Fin 2) * 512 ≤ (i 1).val
      ∧ (i 1).val < win0_2.index ⟨16 * ((i 1).val / 512) + 15, hlt⟩ (1 : Fin 2) * 512 + 512
    omega

/-- The output array ends holding, at (b, n), the infimum over all points m of the second input array of the
    distance between point n of the first and point m of the second. -/
theorem final (c : Dev nD) :
    (dat (F := Ideal) V c).arrAt 2 cfg0.N
      = Cert.Spec.nn (N := 8192) (M := 8192) (V c (Pipeline.arrRef spec0 0)) (V c (Pipeline.arrRef spec0 1)) :=
  (dat (F := Ideal) V c).arrAt_eq_of_cover 2 (Cert.Spec.nn (N := 8192) (M := 8192) (A0 V c) (A1 V c))
    (flushed_eq V c) cover

end Cert.KernelIdeal.R0

end
-- ==== Proof.KI.Tile1.lean ====
/-
  Region 1's tile arithmetic read at an index, over the extended reals. With x0 the block of 512 points of the
  first cloud and x1 the block of 512 points of the second, the tile's minimum at (b, r) is the infimum over the
  512 points q of x1 of the distance between point r of x0 and point q of x1; the first-tile store leaves exactly
  that, a later-tile store the minimum of it and what the block held.
-/
import proofs.«161951_j11493332484300_1_alg».proof.Proof.KI.Body1
import proofs.«161951_j11493332484300_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-! ## Zero offsets -/

/-- The zero offsets of a rank-2 block, as the constant function. -/
private theorem hz2 : (![0, 0] : Fin 2 → Nat) = fun _ => 0 := by
  funext a; match a with | ⟨0, _⟩ => rfl | ⟨1, _⟩ => rfl

/-- The zero offsets of a rank-3 block, as the constant function. -/
private theorem hz3 : (![0, 0, 0] : Fin 3 → Nat) = fun _ => 0 := by
  funext a; match a with | ⟨0, _⟩ => rfl | ⟨1, _⟩ => rfl | ⟨2, _⟩ => rfl

/-! ## The layout operations of the tile, read at explicit coordinates -/

section Layout
variable {α : Type}

/-- A per-row value [4, 512], viewed [4, 512, 1] and broadcast along the last axis, reads at (b, r, q) the value
    at (b, r): the broadcast reads the unit axis at 0, and (b, r, 0) and (b, r) have the same row-major position. -/
private theorem bcRow_apply (w : S4x512.Idx → α) (h1 : S4x512.ShapeCasts S4x512x1) (h2 : S4x512x1.Broadcasts S4x512x512)
    (b : Fin 4) (r q : Fin 512) :
    broadcastTo S4x512x512 (shapeCast S4x512x1 w h1) h2 (ix3 b r q) = w (ix2 b r) := by
  refine (broadcastTo_apply _ h2 (ix3 b r q) (ix3 b r (0 : Fin 1)) fun a => ?_).trans ?_
  · match a with
    | ⟨0, _⟩ => rfl
    | ⟨1, _⟩ => rfl
    | ⟨2, _⟩ => rfl
  · refine shapeCast_apply w h1 _ (ix2 b r) ?_
    rw [Shape.rowMajor_val_two, Shape.rowMajor_val_three]
    show b.val * 512 + r.val = (b.val * 512 + r.val) * 1 + 0
    rw [Nat.mul_one, Nat.add_zero]

/-- A per-row value [4, 512], viewed [4, 1, 512] and broadcast along the middle axis, reads at (b, r, q) the value
    at (b, q): the broadcast reads the unit axis at 0, and (b, 0, q) and (b, q) have the same row-major position. -/
private theorem bcCol_apply (w : S4x512.Idx → α) (h1 : S4x512.ShapeCasts S4x1x512) (h2 : S4x1x512.Broadcasts S4x512x512)
    (b : Fin 4) (r q : Fin 512) :
    broadcastTo S4x512x512 (shapeCast S4x1x512 w h1) h2 (ix3 b r q) = w (ix2 b q) := by
  refine (broadcastTo_apply _ h2 (ix3 b r q) (ix3 b (0 : Fin 1) q) fun a => ?_).trans ?_
  · match a with
    | ⟨0, _⟩ => rfl
    | ⟨1, _⟩ => rfl
    | ⟨2, _⟩ => rfl
  · refine shapeCast_apply w h1 _ (ix2 b q) ?_
    rw [Shape.rowMajor_val_two, Shape.rowMajor_val_three]
    show b.val * 512 + q.val = (b.val * 1 + 0) * 512 + q.val
    rw [Nat.mul_one, Nat.add_zero]

/-- Coordinate k of a block of points [4, 512, 3], cut out as [4, 512, 1] from offset k on the last axis and viewed
    [4, 512], reads at (b, r) the block at (b, r, k). -/
private theorem col_apply (v : S4x512x3.Idx → α) (o : Nat) (k : Fin 3) (hk : k.val = o)
    (h1 : S4x512x3.Slices ![0, 0, o] S4x512x1) (h2 : S4x512x1.ShapeCasts S4x512) (b : Fin 4) (r : Fin 512) :
    shapeCast S4x512 (extractStridedSlice S4x512x1 ![0, 0, o] v h1) h2 (ix2 b r) = v (ix3 b r k) := by
  refine (shapeCast_apply _ h2 (ix2 b r) (ix3 b r (0 : Fin 1)) ?_).trans ?_
  · rw [Shape.rowMajor_val_two, Shape.rowMajor_val_three]
    show (b.val * 512 + r.val) * 1 + 0 = b.val * 512 + r.val
    rw [Nat.mul_one, Nat.add_zero]
  · refine extractStridedSlice_apply _ v h1 _ (ix3 b r k) fun a => ?_
    match a with
    | ⟨0, _⟩ => exact (Nat.zero_add _).symm
    | ⟨1, _⟩ => exact (Nat.zero_add _).symm
    | ⟨2, _⟩ => exact hk

end Layout

/-! ## The two reductions of the tile, read at explicit coordinates -/

/-- The index over (b, r) with q inserted on the last axis of [4, 512, 512] is (b, r, q). -/
private theorem lift512_eq (h : S4x512x512.Reduces [2] S4x512) (b : Fin 4) (r q : Fin 512) :
    h.lift (ix2 b r) q = ix3 b r q := by
  funext a
  match a with
  | ⟨0, _⟩ => exact Fin.ext rfl
  | ⟨1, _⟩ => exact Fin.ext rfl
  | ⟨2, _⟩ => exact Fin.ext rfl

/-- The index over (b, r) with k inserted on the last axis of [4, 512, 3] is (b, r, k). -/
private theorem lift3_eq (h : S4x512x3.Reduces [2] S4x512) (b : Fin 4) (r : Fin 512) (k : Fin 3) :
    h.lift (ix2 b r) k = ix3 b r k := by
  funext a
  match a with
  | ⟨0, _⟩ => exact Fin.ext rfl
  | ⟨1, _⟩ => exact Fin.ext rfl
  | ⟨2, _⟩ => exact Fin.ext rfl

/-- The binary32 word of +infinity is the top of the extended reals. -/
private theorem ofBits_inf : Ideal.ofBits .f32 0x7F800000#32 = ⊤ := by simp [Ideal.ofBits, Ideal.ieee]

/-- The fold of min from +infinity over a finite range is the infimum over it. -/
private theorem fold_min_inf {n : Nat} (f : Fin n → EReal) :
    (Finset.univ : Finset (Fin n)).fold min (Ideal.ofBits .f32 0x7F800000#32) f = Finset.univ.inf f := by
  rw [ofBits_inf]; rfl

/-- The sum over the three coordinates of a block of points, at (b, r). The evidence for the accumulator word is
    stated as the equation the payload carries: the zero word equals itself. -/
private theorem sum3_apply (v : FVec Ideal S4x512x3 .f32) (h : S4x512x3.Reduces [2] S4x512) (hφ : FKind.Formats .f32)
    (hacc : (0x00000000#32 : BitVec 32) = 0x00000000#32) (b : Fin 4) (r : Fin 512) :
    multiReduction .add [2] S4x512 v 0x00000000#32 h hφ hacc (ix2 b r) = ∑ k : Fin 3, v (ix3 b r k) :=
  (Ideal.multiReduction_add_single v 0x00000000#32 h hφ hacc (ix2 b r)).trans
    (Finset.sum_congr rfl fun k _ => congrArg v (lift3_eq h b r k))

/-- The minimum over the last axis of [4, 512, 512] from +infinity, at (b, r): the infimum over the 512 coordinates.
    min commutes and associates, so the fold over the indices that drop to (b, r) is the fold over q of the value
    at (b, r, q); from the top element that fold is the infimum. -/
private theorem min512_apply (v : FVec Ideal S4x512x512 .f32) (h : S4x512x512.Reduces [2] S4x512) (hφ : FKind.Formats .f32)
    (hacc : (0x7F800000#32 : BitVec 32) = 0x7F800000#32) (b : Fin 4) (r : Fin 512) :
    multiReduction .minimumf [2] S4x512 v 0x7F800000#32 h hφ hacc (ix2 b r)
      = Finset.univ.inf fun q : Fin 512 => v (ix3 b r q) :=
  (multiReduction_minimumf_eq_fold v 0x7F800000#32 h hφ hacc (ix2 b r)).trans
    ((h.fold_filter_drop_single _ _ v (ix2 b r)).trans
      ((fold_min_inf fun q : Fin 512 => v (h.lift (ix2 b r) q)).trans
        (Finset.inf_congr rfl fun q _ => congrArg v (lift512_eq h b r q))))

/-! ## The tile's two payloads read at an index -/

/-- The lane minimum of the square roots, at (b, r): the infimum over q of the square root at (b, r, q). -/
private theorem pay1_apply (v : FVec Ideal S4x512x512 .f32) (b : Fin 4) (r : Fin 512) :
    k1_pay1 (F := Ideal) v (ix2 b r) = Finset.univ.inf fun q : Fin 512 => Ideal.sqrt (v (ix3 b r q)) := by
  unfold k1_pay1
  exact min512_apply (sqrt v) _ _ _ b r

/-- The clamped squared distance by the expansion of the square, at (b, r, q): the two squared lengths are the sums
    over the three coordinates, the inner product is the chain ((0 + p0) + p1) + p2 of the coordinate products, and
    the literals 2 and 0 are the words the specification names. -/
private theorem pay3_apply (v0 v1 : Vec Ideal S4x512x3 .f32) (b : Fin 4) (r q : Fin 512) :
    k1_pay3 (F := Ideal) v0 v1 (ix3 b r q)
      = max ((Cert.Spec.sq (N := 512) v0 b r + Cert.Spec.sq (N := 512) v1 b q)
          - Cert.Spec.two * Cert.Spec.dotp (N := 512) (M := 512) v0 v1 b r q) Cert.Spec.zero := by
  have hs : ∀ w : BitVec 32, Scalar.ofBits (F := Ideal) .f32 w = Ideal.ofBits .f32 w := fun _ => rfl
  unfold k1_pay3 Cert.Spec.sq Cert.Spec.dotp Cert.Spec.two Cert.Spec.zero
  simp only [maximumf_apply, subf_apply, addf_apply, mulf_apply, broadcast_apply, bcRow_apply, bcCol_apply,
    col_apply (o := 0) (k := 0) (hk := rfl), col_apply (o := 1) (k := 1) (hk := rfl),
    col_apply (o := 2) (k := 2) (hk := rfl), hs]
  rw [sum3_apply, sum3_apply]
  simp only [mulf_apply, Fin.sum_univ_three, Ideal.ofBits_zero_f32, zero_add]

/-! ## The exported readings -/

/-- The first-tile store leaves the tile's minimum distances. -/
theorem outFirst_eq (x0 x1 : Vec Ideal S4x512x3 .f32) : outFirst (F := Ideal) x0 x1 = tileMin (F := Ideal) x0 x1 := by
  unfold outFirst
  exact View.canon_unit_zero hz2 _ _

/-- A later-tile store leaves, element by element, the minimum of what the block held and the tile's minimum distances. -/
theorem outNext_apply (x0 x1 : Vec Ideal S4x512x3 .f32) (xo : Vec Ideal S4x512 .f32) (j : S4x512.Idx) :
    outNext (F := Ideal) x0 x1 xo j = min (xo j) (tileMin (F := Ideal) x0 x1 j) := by
  unfold outNext
  rw [View.canon_unit_zero hz2]
  unfold k1_pay2
  simp only [View.ld_unit_zero (S := S4x512) hz2, shapeCast_self]
  rfl

/-- The tile's minimum at (b, r): the infimum, over the 512 points q of the second block, of the distance between
    point r of the first block and point q of the second. -/
theorem tileMin_apply (x0 x1 : Vec Ideal S4x512x3 .f32) (b : Fin 4) (r : Fin 512) :
    tileMin (F := Ideal) x0 x1 (ix2 b r) = Finset.univ.inf fun q : Fin 512 => Cert.Spec.dist (N := 512) (M := 512) x0 x1 b r q := by
  unfold tileMin
  rw [View.ld_unit_zero (S := S4x512x3) hz3, View.ld_unit_zero (S := S4x512x3) hz3, pay1_apply]
  refine Finset.inf_congr rfl fun q _ => ?_
  rw [pay3_apply]
  rfl

end Cert.KernelIdeal.R1

end
-- ==== Proof.KI.Final1.lean ====
/-
  Region 1's output array after the region, over the extended reals: for every point of the first input array the
  distance to the nearest point of the second. The output block of rows 512 i .. is written back once, at j = 15,
  holding the minimum over the sixteen tiles of the second array of the tiles' minima, which is the infimum over
  all 8192 points; the sixteen write-backs tile the array.
-/
import proofs.«161951_j11493332484300_1_alg».proof.Proof.KI.Dat1
import proofs.«161951_j11493332484300_1_alg».proof.Proof.KI.Tile1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

-- the TensorCore's buffer contents when the region is entered
variable (V : (c : Dev nD) → (b : Ref sig .tc) → Buf (Elt Ideal) ((c : Thread nD τ).loc b))

/-! ## The arrays and the blocks, by their literal types -/

/-- The first cloud, the second cloud: the two input arrays as the region finds them. -/
abbrev A0 (c : Dev nD) : Cert.Spec.Pts 8192 := V c (Pipeline.arrRef spec1 0)
abbrev A1 (c : Dev nD) : Cert.Spec.Pts 8192 := V c (Pipeline.arrRef spec1 1)
/-- The blocks of 512 points the two input windows hold at point t. -/
abbrev B0 (c : Dev nD) (t : Fin cfg1.N) : Cert.Spec.Pts 512 := iblk V c 0 t
abbrev B1 (c : Dev nD) (t : Fin cfg1.N) : Cert.Spec.Pts 512 := iblk V c 1 t

/-! ## The index maps over the grid: point t = 16 i + j reads rows 512 i .. of the first array, rows 512 j .. of
    the second, and writes rows 512 i .. of the output -/

theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16)

theorem t_lt (t : Fin cfg1.N) : t.val < 256 := lt_of_lt_of_eq t.isLt (show cfg1.N = 256 from N_1)

/-- Row r of the block of rows 512 (t / 16) .. is a row of the array; likewise of the block of rows 512 (t % 16) .. -/
theorem row_lt (t : Fin cfg1.N) (r : Fin 512) : 512 * (t.val / 16) + r.val < 8192 := by
  have := t_lt t; have := r.isLt; omega
theorem col_lt (t : Fin cfg1.N) (q : Fin 512) : 512 * (t.val % 16) + q.val < 8192 := by
  have := q.isLt; omega

/-! ## Block reads -/

/-- The first window's block at point t holds rows 512 (t / 16) .. of the first array. -/
theorem B0_apply (c : Dev nD) (t : Fin cfg1.N) (b : Fin 4) (r : Fin 512) (k : Fin 3) :
    B0 V c t (ix3 b r k) = A0 V c (ix3 b ⟨512 * (t.val / 16) + r.val, row_lt t r⟩ k) := by
  obtain ⟨e0, e1, e2, -, -, -, -, -⟩ := idx_facts t
  show V c (Pipeline.arrRef spec1 0) (((cfg1.win 0).blk t).view.emb (ix3 b r k)) = V c (Pipeline.arrRef spec1 0) (ix3 b ⟨512 * (t.val / 16) + r.val, row_lt t r⟩ k)
  refine congrArg _ ?_
  funext a; apply Fin.ext
  match a with
  | ⟨0, _⟩ => show win1_0.index t (0 : Fin 3) * 4 + 1 * b.val = b.val; omega
  | ⟨1, _⟩ => show win1_0.index t (1 : Fin 3) * 512 + 1 * r.val = 512 * (t.val / 16) + r.val; omega
  | ⟨2, _⟩ => show win1_0.index t (2 : Fin 3) * 3 + 1 * k.val = k.val; omega

/-- The second window's block at point t holds rows 512 (t % 16) .. of the second array. -/
theorem B1_apply (c : Dev nD) (t : Fin cfg1.N) (b : Fin 4) (q : Fin 512) (k : Fin 3) :
    B1 V c t (ix3 b q k) = A1 V c (ix3 b ⟨512 * (t.val % 16) + q.val, col_lt t q⟩ k) := by
  obtain ⟨-, -, -, e0, e1, e2, -, -⟩ := idx_facts t
  show V c (Pipeline.arrRef spec1 1) (((cfg1.win 1).blk t).view.emb (ix3 b q k)) = V c (Pipeline.arrRef spec1 1) (ix3 b ⟨512 * (t.val % 16) + q.val, col_lt t q⟩ k)
  refine congrArg _ ?_
  funext a; apply Fin.ext
  match a with
  | ⟨0, _⟩ => show win1_1.index t (0 : Fin 3) * 4 + 1 * b.val = b.val; omega
  | ⟨1, _⟩ => show win1_1.index t (1 : Fin 3) * 512 + 1 * q.val = 512 * (t.val % 16) + q.val; omega
  | ⟨2, _⟩ => show win1_1.index t (2 : Fin 3) * 3 + 1 * k.val = k.val; omega

/-- The distance between point r of the first block and point q of the second block is the distance between the
    points 512 (t / 16) + r and 512 (t % 16) + q of the two arrays: the squared lengths and the inner product are
    sums over the three coordinates of the same entries. -/
theorem dist_blocks (c : Dev nD) (t : Fin cfg1.N) (b : Fin 4) (r q : Fin 512) :
    Cert.Spec.dist (N := 512) (M := 512) (B0 V c t) (B1 V c t) b r q
      = Cert.Spec.dist (N := 8192) (M := 8192) (A0 V c) (A1 V c) b ⟨512 * (t.val / 16) + r.val, row_lt t r⟩
          ⟨512 * (t.val % 16) + q.val, col_lt t q⟩ := by
  unfold Cert.Spec.dist Cert.Spec.sq Cert.Spec.dotp
  simp only [B0_apply, B1_apply]

/-! ## Infima over an initial segment of the second cloud -/

/-- The infimum of f over the indices below m. -/
def infBelow (f : Fin 8192 → EReal) (m : ℕ) : EReal := (Finset.univ.filter fun i : Fin 8192 => i.val < m).inf f

/-- Below 8192 is everything. -/
theorem infBelow_all (f : Fin 8192 → EReal) : infBelow f 8192 = Finset.univ.inf f := by
  unfold infBelow
  rw [Finset.filter_true_of_mem fun i _ => i.isLt]

/-- The first tile: the infimum below 512 is the infimum over the tile. -/
theorem infBelow_first (f : Fin 8192 → EReal) :
    infBelow f 512 = Finset.univ.inf fun q : Fin 512 => f ⟨q.val, by have := q.isLt; omega⟩ := by
  unfold infBelow
  apply le_antisymm
  · refine Finset.le_inf fun q _ => Finset.inf_le ?_
    rw [Finset.mem_filter]; exact ⟨Finset.mem_univ _, q.isLt⟩
  · refine Finset.le_inf fun i hi => ?_
    rw [Finset.mem_filter] at hi
    exact Finset.inf_le (f := fun q : Fin 512 => f ⟨q.val, by have := q.isLt; omega⟩) (Finset.mem_univ (⟨i.val, hi.2⟩ : Fin 512))

/-- One more tile: the infimum below 512 (j + 1) is the smaller of the infimum below 512 j and the infimum over
    tile j. -/
theorem infBelow_step (f : Fin 8192 → EReal) (j : ℕ) (hj : j < 16) :
    infBelow f (512 * (j + 1))
      = min (infBelow f (512 * j)) (Finset.univ.inf fun q : Fin 512 => f ⟨512 * j + q.val, by have := q.isLt; omega⟩) := by
  unfold infBelow
  apply le_antisymm
  · refine le_min (Finset.le_inf fun i hi => Finset.inf_le ?_) (Finset.le_inf fun q _ => Finset.inf_le ?_)
    · rw [Finset.mem_filter] at hi ⊢; exact ⟨Finset.mem_univ _, by have := hi.2; omega⟩
    · rw [Finset.mem_filter]; exact ⟨Finset.mem_univ _, by have := q.isLt; show 512 * j + q.val < 512 * (j + 1); omega⟩
  · refine Finset.le_inf fun i hi => ?_
    rw [Finset.mem_filter] at hi
    by_cases h : i.val < 512 * j
    · refine (min_le_left _ _).trans (Finset.inf_le ?_)
      rw [Finset.mem_filter]; exact ⟨Finset.mem_univ _, h⟩
    · refine (min_le_right _ _).trans ?_
      have hlt : i.val - 512 * j < 512 := by have := hi.2; omega
      have e : (⟨512 * j + (i.val - 512 * j), by have := i.isLt; omega⟩ : Fin 8192) = i := Fin.ext (by show 512 * j + (i.val - 512 * j) = i.val; omega)
      exact (Finset.inf_le (f := fun q : Fin 512 => f ⟨512 * j + q.val, by have := q.isLt; omega⟩)
        (Finset.mem_univ (⟨i.val - 512 * j, hlt⟩ : Fin 512))).trans (le_of_eq (congrArg f e))

/-! ## The running minimum after each point -/

/-- The block distance with the array points named by any indices of the right values. -/
theorem dist_blocks_at (c : Dev nD) (t : Fin cfg1.N) (b : Fin 4) (r q : Fin 512) (n m : Fin 8192)
    (hn : n.val = 512 * (t.val / 16) + r.val) (hm : m.val = 512 * (t.val % 16) + q.val) :
    Cert.Spec.dist (N := 512) (M := 512) (B0 V c t) (B1 V c t) b r q
      = Cert.Spec.dist (N := 8192) (M := 8192) (A0 V c) (A1 V c) b n m := by
  have en : n = ⟨512 * (t.val / 16) + r.val, row_lt t r⟩ := Fin.ext hn
  have em : m = ⟨512 * (t.val % 16) + q.val, col_lt t q⟩ := Fin.ext hm
  rw [en, em]
  exact dist_blocks V c t b r q

/-- The running minimum does not depend on how its point is written. -/
theorem outs_congr (c : Dev nD) (n n' : ℕ) (e : n = n') (h : n < cfg1.N) (h' : n' < cfg1.N) :
    outs V c n h = outs V c n' h' := by
  subst e; rfl

/-- THE INVARIANT. After point 16 i + j the output block holds at (b, r) the infimum, over the points of the second
    array below 512 (j + 1), of their distances to point 512 i + r of the first: the first tile's minima at j = 0,
    one more tile's at each later j. By induction on j. -/
theorem outs_apply (c : Dev nD) (i : ℕ) (hi : i < 16) :
    ∀ (j : ℕ) (hj : j < 16) (h : 16 * i + j < cfg1.N) (b : Fin 4) (r : Fin 512),
      outs V c (16 * i + j) h (ix2 b r)
        = infBelow (fun m => Cert.Spec.dist (N := 8192) (M := 8192) (A0 V c) (A1 V c) b
            ⟨512 * i + r.val, by have := r.isLt; omega⟩ m) (512 * (j + 1))
  | 0, hj, h, b, r => by
    have h0 : (⟨16 * i + 0, h⟩ : Fin cfg1.N).val % 16 = 0 := by show (16 * i + 0) % 16 = 0; omega
    refine (congrFun (outs_first V c ⟨16 * i + 0, h⟩ h0) (ix2 b r)).trans ?_
    refine (congrFun (outFirst_eq (B0 V c ⟨16 * i + 0, h⟩) (B1 V c ⟨16 * i + 0, h⟩)) (ix2 b r)).trans ?_
    refine (tileMin_apply (B0 V c ⟨16 * i + 0, h⟩) (B1 V c ⟨16 * i + 0, h⟩) b r).trans ?_
    rw [show 512 * (0 + 1) = 512 from rfl, infBelow_first]
    refine Finset.inf_congr rfl fun q _ => ?_
    exact dist_blocks_at V c ⟨16 * i + 0, h⟩ b r q _ _
      (by show 512 * i + r.val = 512 * ((16 * i + 0) / 16) + r.val; omega)
      (by show q.val = 512 * ((16 * i + 0) % 16) + q.val; omega)
  | j + 1, hj, h, b, r => by
    have hne : ¬ (⟨16 * i + (j + 1), h⟩ : Fin cfg1.N).val % 16 = 0 := by
      show ¬ (16 * i + (j + 1)) % 16 = 0; omega
    refine (congrFun (outs_next V c ⟨16 * i + (j + 1), h⟩ hne) (ix2 b r)).trans ?_
    refine (outNext_apply (B0 V c ⟨16 * i + (j + 1), h⟩) (B1 V c ⟨16 * i + (j + 1), h⟩) _ (ix2 b r)).trans ?_
    rw [infBelow_step _ (j + 1) hj]
    refine congrArg₂ min ?_ ?_
    · rw [outs_congr V c ((⟨16 * i + (j + 1), h⟩ : Fin cfg1.N).val - 1) (16 * i + j)
        (by show 16 * i + (j + 1) - 1 = 16 * i + j; omega) _ (by omega)]
      exact outs_apply c i hi j (by omega) _ b r
    · refine (tileMin_apply (B0 V c ⟨16 * i + (j + 1), h⟩) (B1 V c ⟨16 * i + (j + 1), h⟩) b r).trans ?_
      refine Finset.inf_congr rfl fun q _ => ?_
      exact dist_blocks_at V c ⟨16 * i + (j + 1), h⟩ b r q _ _
        (by show 512 * i + r.val = 512 * ((16 * i + (j + 1)) / 16) + r.val; omega)
        (by show 512 * (j + 1) + q.val = 512 * ((16 * i + (j + 1)) % 16) + q.val; omega)

/-- At a point with j = 15 the block holds the infimum over the whole second array: the nearest-point distance
    of row 512 (t / 16) + r. -/
theorem outs_last (c : Dev nD) (t : Fin cfg1.N) (h15 : t.val % 16 = 15) (b : Fin 4) (r : Fin 512) :
    outs V c t.val t.isLt (ix2 b r)
      = Cert.Spec.nn (N := 8192) (M := 8192) (A0 V c) (A1 V c) (ix2 b ⟨512 * (t.val / 16) + r.val, row_lt t r⟩) := by
  have hN := t_lt t
  have ht : t.val = 16 * (t.val / 16) + 15 := by omega
  rw [Cert.Spec.nn_apply, outs_congr V c t.val (16 * (t.val / 16) + 15) ht t.isLt (ht ▸ t.isLt),
    outs_apply V c (t.val / 16) (by omega) 15 (by omega) _ b r, show 512 * (15 + 1) = 8192 from rfl, infBelow_all]

/-! ## What is written back, and where -/

/-- What a point with j = 15 writes back is its block of the nearest-point distances. -/
theorem flushed_eq (c : Dev nD) (t : Fin cfg1.N) (hf : (cfg1.win 2).flush t = true) :
    (dat (F := Ideal) V c).flushed 2 t
      = ((cfg1.win 2).blk t).view.read (Elt Ideal) (Cert.Spec.nn (N := 8192) (M := 8192) (A0 V c) (A1 V c)) := by
  have h15 : t.val % 16 = 15 := (flush1_2 t).mp hf
  obtain ⟨-, -, -, -, -, -, e0, e1⟩ := idx_facts t
  show (cfg1.win 2).cut (grid1.coords t) ((dat (F := Ideal) V c).after 2 t) = _
  rw [after_2]
  funext y
  obtain ⟨b, r, rfl⟩ : ∃ (b : Fin 4) (r : Fin 512), y = ix2 b r := ⟨y 0, y 1, eq_ix2 (n0 := 4) (n1 := 512) y⟩
  have ex : (cfg1.win 2).xinj (grid1.coords t) (ix2 b r) = ix2 b r :=
    funext fun a => match a with | ⟨0, _⟩ => rfl | ⟨1, _⟩ => rfl
  have em : ((cfg1.win 2).blk t).view.emb (ix2 b r) = ix2 b ⟨512 * (t.val / 16) + r.val, row_lt t r⟩ := by
    funext a; apply Fin.ext
    match a with
    | ⟨0, _⟩ => show win1_2.index t (0 : Fin 2) * 4 + 1 * b.val = b.val; omega
    | ⟨1, _⟩ => show win1_2.index t (1 : Fin 2) * 512 + 1 * r.val = 512 * (t.val / 16) + r.val; omega
  show outs V c t.val t.isLt ((cfg1.win 2).xinj (grid1.coords t) (ix2 b r))
    = Cert.Spec.nn (N := 8192) (M := 8192) (A0 V c) (A1 V c) (((cfg1.win 2).blk t).view.emb (ix2 b r))
  rw [ex, em]
  exact outs_last V c t h15 b r

/-- Row n of the output array lies in the block written back at point 16 (n / 512) + 15. -/
theorem cover (i : S4x8192.Idx) :
    ∃ t : Fin cfg1.N, (cfg1.win 2).flush t = true ∧ i ∈ ((cfg1.win 2).blk t).view.set := by
  have hN : cfg1.N = 256 := N_1
  have h0 : (i 0).val < 4 := (i 0).isLt
  have h1 : (i 1).val < 8192 := (i 1).isLt
  have hlt : 16 * ((i 1).val / 512) + 15 < cfg1.N := by rw [hN]; omega
  obtain ⟨-, -, -, -, -, -, e0, e1⟩ := idx_facts ⟨16 * ((i 1).val / 512) + 15, hlt⟩
  have e1' : win1_2.index ⟨16 * ((i 1).val / 512) + 15, hlt⟩ (1 : Fin 2) = (i 1).val / 512 := by
    rw [e1]; show (16 * ((i 1).val / 512) + 15) / 16 = (i 1).val / 512; omega
  refine ⟨⟨16 * ((i 1).val / 512) + 15, hlt⟩, (flush1_2 _).mpr (by show (16 * ((i 1).val / 512) + 15) % 16 = 15; omega), ?_⟩
  show i ∈ ((View.whole main_v1).slice (win1_2.rect ⟨16 * ((i 1).val / 512) + 15, hlt⟩)).set
  rw [View.set_slice_whole, Rect.mem_set_unit]
  intro a
  match a with
  | ⟨0, _⟩ =>
    show win1_2.index ⟨16 * ((i 1).val / 512) + 15, hlt⟩ (0 : Fin 2) * 4 ≤ (i 0).val
      ∧ (i 0).val < win1_2.index ⟨16 * ((i 1).val / 512) + 15, hlt⟩ (0 : Fin 2) * 4 + 4
    omega
  | ⟨1, _⟩ =>
    show win1_2.index ⟨16 * ((i 1).val / 512) + 15, hlt⟩ (1 : Fin 2) * 512 ≤ (i 1).val
      ∧ (i 1).val < win1_2.index ⟨16 * ((i 1).val / 512) + 15, hlt⟩ (1 : Fin 2) * 512 + 512
    omega

/-- The output array ends holding, at (b, n), the infimum over all points m of the second input array of the
    distance between point n of the first and point m of the second. -/
theorem final (c : Dev nD) :
    (dat (F := Ideal) V c).arrAt 2 cfg1.N
      = Cert.Spec.nn (N := 8192) (M := 8192) (V c (Pipeline.arrRef spec1 0)) (V c (Pipeline.arrRef spec1 1)) :=
  (dat (F := Ideal) V c).arrAt_eq_of_cover 2 (Cert.Spec.nn (N := 8192) (M := 8192) (A0 V c) (A1 V c))
    (flushed_eq V c) cover

end Cert.KernelIdeal.R1

end
-- ==== Proof.KI.Result.lean ====
/-
  The value the idealized kernel returns. Region 0 leaves, in its output array, for every point of the first
  argument the distance to the nearest point of the second; region 1, called on the arguments swapped, for every
  point of the second argument the distance to the nearest point of the first. The thirteen host operations take
  the mean of each array over its 8192 points per sample, add the two means, and sum over the 4 samples.
-/
import proofs.«161951_j11493332484300_1_alg».proof.Proof.KI.Run
import proofs.«161951_j11493332484300_1_alg».proof.Proof.KI.Final0
import proofs.«161951_j11493332484300_1_alg».proof.Proof.KI.Final1
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The host operations after the two regions, as one function of the two nearest-neighbour arrays: the first
    argument is the array region 1 wrote, the second the array region 0 wrote. Never opened. -/
def tail (p q : (⟨S4x8192, .f32⟩ : BufTy).Contents (Elt Ideal)) : (⟨S_, .f32⟩ : BufTy).Contents (Elt Ideal) :=
  Host.reduceAdd
    (addf
      (Host.divf (Host.reduceAdd p (constant (F := Ideal) S_ .f32 0x00000000#32) reducesTo_S4x8192_S4_d1 h_S_)
        (broadcastInDim S4 ![] bcast_S_S4 (constant (F := Ideal) S_ .f32 0x46000000#32)))
      (Host.divf (Host.reduceAdd q (constant (F := Ideal) S_ .f32 0x00000000#32) reducesTo_S4x8192_S4_d1 h_S_)
        (broadcastInDim S4 ![] bcast_S_S4 (constant (F := Ideal) S_ .f32 0x46000000#32))))
    (constant (F := Ideal) S_ .f32 0x00000000#32) reducesTo_S4_S_d0 h_S_

/-- The returned scalar is the host tail of the two regions' output arrays. -/
theorem Wd_main_v9 (c : Dev nD) :
    Wd m c (Proc.devRef .tc main_v9) = tail (Wc m c (Proc.devRef .tc main_v1)) (Wc m c (Proc.devRef .tc main_v0)) := by
  show StableHlo.after hostOps2 (Wc m c) (Proc.devRef .tc main_v9) = _
  after_results
  rfl

/-- Region 0 is entered with the arguments as launched. -/
theorem Va_arg0 (c : Dev nD) : Va m c (Pipeline.arrRef spec0 0) = m ((c : Thread nD τ).loc main_arg0) := rfl
theorem Va_arg1 (c : Dev nD) : Va m c (Pipeline.arrRef spec0 1) = m ((c : Thread nD τ).loc main_arg1) := rfl

/-- Region 1 is entered with the arguments as launched: region 0 reads them only. Its first window stages the
    second argument, its second window the first. -/
theorem Vb_arg1 (c : Dev nD) : Vb m c (Pipeline.arrRef spec1 0) = m ((c : Thread nD τ).loc main_arg1) :=
  (Wb_arr m c 1).trans (((R0.dat (Va m) c).arrAt_in 1 rfl _).trans (R0.A_eq (Va m) c 1))
theorem Vb_arg0 (c : Dev nD) : Vb m c (Pipeline.arrRef spec1 1) = m ((c : Thread nD τ).loc main_arg0) :=
  (Wb_arr m c 0).trans (((R0.dat (Va m) c).arrAt_in 0 rfl _).trans (R0.A_eq (Va m) c 0))

/-- What region 0 wrote is still there after region 1, which does not touch that array. -/
theorem Wc_main_v0 (c : Dev nD) :
    Wc m c (Proc.devRef .tc main_v0)
      = Cert.Spec.nn (N := 8192) (M := 8192) (m ((c : Thread nD τ).loc main_arg0)) (m ((c : Thread nD τ).loc main_arg1)) := by
  rw [Wc_of_ne m c main_v0 (by decide)]
  refine (Wb_arr m c 2).trans ?_
  rw [R0.final (Va m) c, Va_arg0, Va_arg1]

theorem Wc_main_v1 (c : Dev nD) :
    Wc m c (Proc.devRef .tc main_v1)
      = Cert.Spec.nn (N := 8192) (M := 8192) (m ((c : Thread nD τ).loc main_arg1)) (m ((c : Thread nD τ).loc main_arg0)) := by
  refine (Wc_arr m c 2).trans ?_
  rw [R1.final (Vb m) c, Vb_arg1, Vb_arg0]

/-- THE KERNEL'S VALUE: the host tail of the two nearest-neighbour arrays of the arguments. -/
theorem result_eq (c : Dev nD) :
    Wd m c (Proc.devRef .tc main_v9)
      = tail (Cert.Spec.nn (N := 8192) (M := 8192) (m ((c : Thread nD τ).loc main_arg1)) (m ((c : Thread nD τ).loc main_arg0)))
          (Cert.Spec.nn (N := 8192) (M := 8192) (m ((c : Thread nD τ).loc main_arg0)) (m ((c : Thread nD τ).loc main_arg1))) := by
  rw [Wd_main_v9, Wc_main_v1, Wc_main_v0]

end Cert.KernelIdeal.Run

end
-- ==== Proof.RefValue.lean ====
/-
  The reference's two nearest-neighbour arrays, over the extended reals. Its pairwise distances d(b, n, m) are, term
  by term, the distance of the specification between point n of the first argument and point m of the second; the
  minimum over m (axis 2) is the nearest-neighbour array of the first argument against the second, the minimum over
  n (axis 1) that of the second against the first, the distance being symmetric.
-/
import proofs.«161951_j11493332484300_1_alg».proof.Proof.Gen.ReferenceIdeal.Run
import proofs.«161951_j11493332484300_1_alg».proof.Proof.Gen.ReferenceIdeal.Read
import proofs.«161951_j11493332484300_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.RefValue

open Cert.ReferenceIdeal Cert.ReferenceIdeal.Gen Cert.ReferenceIdeal.Read Idealize.ShloMosaic Idealize.ShloMosaic.ValueIdx

/-! ### The pairwise distance, term by term -/

/-- The squared-length row of the first argument is read at (b, n, k). -/
theorem idx_sq0 (b : Fin 4) (n m : Fin 8192) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared-length row of the second argument is read at (b, m, k). -/
theorem idx_sq1 (b : Fin 4) (n m : Fin 8192) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The inner product's left operand is read at (b, n, k). -/
theorem idx_dotl (b : Fin 4) (n m : Fin 8192) (k : Fin 3) :
    lidx_main_v4 (ix3 b n m) k = ix3 b n k :=
  funext fun a => Fin.ext (by match a with | ⟨0, _⟩ => rfl | ⟨1, _⟩ => rfl | ⟨2, _⟩ => rfl)

/-- The inner product's right operand is read at (b, m, k). -/
theorem idx_dotr (b : Fin 4) (n m : Fin 8192) (k : Fin 3) :
    ridx_main_v4 (ix3 b n m) k = ix3 b m k :=
  funext fun a => Fin.ext (by match a with | ⟨0, _⟩ => rfl | ⟨1, _⟩ => rfl | ⟨2, _⟩ => rfl)

/-- The reference's pairwise distance at (b, n, m) is the specification's distance between point n of the first
    argument and point m of the second. -/
theorem v15_ix3 (x0 x1 : (⟨S4x8192x3, .f32⟩ : BufTy).Contents (Elt Ideal)) (b : Fin 4) (n m : Fin 8192) :
    val_main_v15 (F := Ideal) x0 x1 (ix3 b n m) = Cert.Spec.dist x0 x1 b n m := by
  rw [val_main_v15_apply, val_main_v14_apply, val_main_v12_apply, val_main_v9_apply, val_main_v7_apply,
    val_main_v5_apply, val_main_v1_apply, val_main_v8_apply, val_main_v6_apply, val_main_v3_apply,
    val_main_v11_apply, val_main_v10_apply, val_main_v4_apply, val_main_v13_apply, val_main_cst_apply,
    val_main_cst_0_apply, val_main_cst_1_apply, val_main_cst_2_apply]
  simp only [idx_sq0, idx_sq1, idx_dotl, idx_dotr, val_main_v0_apply, val_main_v2_apply, Ideal.hostUnary_sqrt_def,
    Ideal.maximumf_def, Ideal.subf_def, Ideal.addf_def, Ideal.mulf_def, Ideal.ofBits_def, Ideal.ofBits_zero_f32,
    zero_add, Cert.Spec.dist, Cert.Spec.sq, Cert.Spec.dotp, Cert.Spec.two, Cert.Spec.zero]

/-! ### The two minima -/

/-- The word 0x7F800000 is +∞, the top of the extended reals. -/
theorem top_word : Ideal.ofBits .f32 0x7F800000#32 = (⊤ : EReal) := by simp [Ideal.ofBits, Ideal.ieee]

/-- The fold of the minimum from ⊤ over all of `Fin N` is the infimum. -/
theorem fold_min_eq_inf {N : Nat} (f : Fin N → EReal) :
    (Finset.univ : Finset (Fin N)).fold (FloatOps.minimumf (F := Ideal) (φ := .f32)) (⊤ : EReal) f = Finset.univ.inf f := rfl

/-- Inserting coordinate m on axis 2 of (b, n) gives (b, n, m). -/
theorem lift_d2 (h : S4x8192x8192.Reduces [2] S4x8192) (b : Fin 4) (n m : Fin 8192) :
    h.lift (ix2 b n) m = ix3 b n m :=
  funext fun a => Fin.ext (by match a with | ⟨0, _⟩ => rfl | ⟨1, _⟩ => rfl | ⟨2, _⟩ => rfl)

/-- Inserting coordinate n on axis 1 of (b, m) gives (b, n, m). -/
theorem lift_d1 (h : S4x8192x8192.Reduces [1] S4x8192) (b : Fin 4) (m n : Fin 8192) :
    h.lift (ix2 b m) n = ix3 b n m :=
  funext fun a => Fin.ext (by match a with | ⟨0, _⟩ => rfl | ⟨1, _⟩ => rfl | ⟨2, _⟩ => rfl)

/-- The minimum over axis 2 from +∞, at (b, n): the infimum over m of the array at (b, n, m). -/
theorem reduce_min_d2 (y : S4x8192x8192.Idx → EReal) (b : Fin 4) (n : Fin 8192) :
    Host.reduce (FloatOps.minimumf (F := Ideal) (φ := .f32)) y (val_main_cst_4 (F := Ideal))
        reducesTo_S4x8192x8192_S4x8192_d2 h_S_ (ix2 b n)
      = Finset.univ.inf fun m : Fin 8192 => y (ix3 b n m) := by
  have h : S4x8192x8192.Reduces [2] S4x8192 := by decide
  rw [Host.reduce_eq_fold_single _ y _ reducesTo_S4x8192x8192_S4x8192_d2 h h_S_ (ix2 b n),
    val_main_cst_4_apply, Ideal.ofBits_def, top_word]
  have e : (y ∘ h.lift (ix2 b n)) = fun m : Fin 8192 => y (ix3 b n m) :=
    funext fun m => congrArg y (lift_d2 h b n m)
  rw [e]
  exact fold_min_eq_inf _

/-- The minimum over axis 1 from +∞, at (b, m): the infimum over n of the array at (b, n, m). -/
theorem reduce_min_d1 (y : S4x8192x8192.Idx → EReal) (b : Fin 4) (m : Fin 8192) :
    Host.reduce (FloatOps.minimumf (F := Ideal) (φ := .f32)) y (val_main_cst_3 (F := Ideal))
        reducesTo_S4x8192x8192_S4x8192_d1 h_S_ (ix2 b m)
      = Finset.univ.inf fun n : Fin 8192 => y (ix3 b n m) := by
  have h : S4x8192x8192.Reduces [1] S4x8192 := by decide
  rw [Host.reduce_eq_fold_single _ y _ reducesTo_S4x8192x8192_S4x8192_d1 h h_S_ (ix2 b m),
    val_main_cst_3_apply, Ideal.ofBits_def, top_word]
  have e : (y ∘ h.lift (ix2 b m)) = fun n : Fin 8192 => y (ix3 b n m) :=
    funext fun n => congrArg y (lift_d1 h b m n)
  rw [e]
  exact fold_min_eq_inf _

/-- The minimum over the second argument's points: for every point of `x0` the distance to the nearest point of `x1`. -/
theorem v17_eq (x0 x1 : (⟨S4x8192x3, .f32⟩ : BufTy).Contents (Elt Ideal)) :
    val_main_v17 (F := Ideal) x0 x1 = Cert.Spec.nn (N := 8192) (M := 8192) x0 x1 := by
  funext j
  obtain ⟨b, n, rfl⟩ : ∃ (b : Fin 4) (n : Fin 8192), j = ix2 b n := ⟨j 0, j 1, eq_ix2 j⟩
  unfold val_main_v17
  rw [reduce_min_d2, Cert.Spec.nn_apply]
  exact Finset.inf_congr rfl fun m _ => v15_ix3 x0 x1 b n m

/-- The minimum over the first argument's points: for every point of `x1` the distance to the nearest point of `x0`. -/
theorem v16_eq (x0 x1 : (⟨S4x8192x3, .f32⟩ : BufTy).Contents (Elt Ideal)) :
    val_main_v16 (F := Ideal) x0 x1 = Cert.Spec.nn (N := 8192) (M := 8192) x1 x0 := by
  funext j
  obtain ⟨b, m, rfl⟩ : ∃ (b : Fin 4) (m : Fin 8192), j = ix2 b m := ⟨j 0, j 1, eq_ix2 j⟩
  unfold val_main_v16
  rw [reduce_min_d1, Cert.Spec.nn_apply]
  exact Finset.inf_congr rfl fun n _ => (v15_ix3 x0 x1 b n m).trans (Cert.Spec.dist_comm x0 x1 b n m)

end Cert.RefValue

end
-- ==== Proof.lean ====
/-
  The certificate of a bidirectional Chamfer distance. Two clouds of 8192 points in R^3, in 4 batches. The kernel
  runs one pallas_call per direction: on a 16 x 16 grid of 512 x 512 tiles it forms, for a tile of points r of the
  first cloud and points q of the second, sqrt(max((|a_r|^2 + |b_q|^2) - 2 (a_r . b_q), 0)), takes the minimum
  over q, and keeps a running minimum over the sixteen tiles of the second cloud in its output block, written
  back after the last. The reference forms all 8192 x 8192 distances at once and takes the minimum over each axis.
  Over the extended reals both give, for every point of one cloud, the infimum of the distance over the points of
  the other: a minimum over 8192 points is the minimum, over sixteen tiles, of the tiles' minima, the three-term
  inner product accumulated from zero is the sum over the three coordinates, and the distance is symmetric in its
  two points (the second call has the clouds swapped). The same host operations follow in both programs: the mean
  of each nearest-neighbour array per sample, the two means added, the sum over the samples. No use is made of the
  inputs' finiteness: only commutativity and associativity of + and *, and the lattice laws of min, are needed.
  The ideal pass rewrote nothing, so the idealized kernel is the kernel's own text and `preserves` is trivial.
-/
import proofs.«161951_j11493332484300_1_alg».proof.Defs
import proofs.«161951_j11493332484300_1_alg».proof.Proof.Gen.Kernel
import proofs.«161951_j11493332484300_1_alg».proof.Proof.Gen.KernelIdeal
import proofs.«161951_j11493332484300_1_alg».proof.Proof.Gen.ReferenceIdeal
import proofs.«161951_j11493332484300_1_alg».proof.Proof.Gen.Pre_finite_inputs
import proofs.«161951_j11493332484300_1_alg».proof.Proof.K.Run
import proofs.«161951_j11493332484300_1_alg».proof.Proof.KI.Result
import proofs.«161951_j11493332484300_1_alg».proof.Proof.RefValue
import Idealize.ShloMosaic.Adequacy
import Idealize.ShloMosaic.Init

noncomputable section

namespace Cert.Proof

open Idealize.ShloMosaic Idealize.ShloMosaic.TcCoe Idealize.SL.Sem

/-- Both kernel programs run to the end, fault nowhere and leave their arguments unchanged. -/
theorem frame_k : Cert.frame_Kernel := fun m ρ _ => Cert.Kernel.Run.frame m ρ
theorem frame_ki : Cert.frame_KernelIdeal := fun m ρ _ => Cert.KernelIdeal.Run.frame m ρ
/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's last thirteen operations are the kernel's host operations: the same function of the two
    nearest-neighbour arrays (the minimum over the first cloud's points first, as the kernel's second call writes it). -/
theorem ref_tail (x0 x1 : (⟨Cert.ReferenceIdeal.S4x8192x3, .f32⟩ : BufTy).Contents (Elt Ideal)) :
    Cert.ReferenceIdeal.Read.val_main_v25 (F := Ideal) x0 x1
      = Cert.KernelIdeal.Run.tail (Cert.ReferenceIdeal.Read.val_main_v16 (F := Ideal) x0 x1) (Cert.ReferenceIdeal.Read.val_main_v17 (F := Ideal) x0 x1) := rfl

/-- From memories agreeing on the two clouds both idealized programs end with the same scalar. -/
theorem algebraic : Cert.algebraic_KernelIdeal_ReferenceIdeal := by
  intro m ρ m' ρ' _ hagree
  refine ⟨fun c => Cert.KernelIdeal.Run.tail
      (Cert.Spec.nn (N := 8192) (M := 8192) (m ((c.tc : Thread Cert.KernelIdeal.nD Cert.KernelIdeal.τ).loc Cert.KernelIdeal.main_arg1)) (m ((c.tc : Thread Cert.KernelIdeal.nD Cert.KernelIdeal.τ).loc Cert.KernelIdeal.main_arg0)))
      (Cert.Spec.nn (N := 8192) (M := 8192) (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · refine (θ_run Cert.KernelIdeal.defs _ _).mono (fun _ h c => ⟨?_, ?_, ?_⟩) (Cert.KernelIdeal.Run.run_main (F := Ideal) m ρ)
    · exact (h c _ (Cert.KernelIdeal.Run.mem_uc Cert.KernelIdeal.main_v9 (by decide))).trans (Cert.KernelIdeal.Run.result_eq m c)
    · exact (h c _ (Cert.KernelIdeal.Run.mem_uc Cert.KernelIdeal.main_arg0 (by decide))).trans (Cert.KernelIdeal.Run.Wd_main_arg0 m c)
    · exact (h c _ (Cert.KernelIdeal.Run.mem_uc Cert.KernelIdeal.main_arg1 (by decide))).trans (Cert.KernelIdeal.Run.Wd_main_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, ref_tail, Cert.RefValue.v16_eq, Cert.RefValue.v17_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
